-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x270x3000 : Shape := ⟨3, ![128, 270, 3000]⟩
abbrev S128 : Shape := ⟨1, ![128]⟩
abbrev S100x270x270 : Shape := ⟨3, ![100, 270, 270]⟩
abbrev S_ : Shape := ⟨0, ![]⟩

class Facts : Prop where
  bcast_S_S128x270x3000 : S_.BroadcastsInDim S128x270x3000 (![] : Fin 0 → Fin S128x270x3000.rank)
  reducesTo_S128x270x3000_S_d0_1_2 : S128x270x3000.ReducesTo [0, 1, 2] S_
  h_S_ : 0 < S_.numel
  bcast_S_S100x270x270 : S_.BroadcastsInDim S100x270x270 (![] : Fin 0 → Fin S100x270x270.rank)
  reducesTo_S100x270x270_S_d0_1_2 : S100x270x270.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S128x270x3000 .f32) (main_arg1 : IVec S128 32) (main_arg2 : FVec F S100x270x270 .f32) : IVec S_ 1 :=
  let main_v0 : FVec F S128x270x3000 .f32 := Host.absf main_arg0
  let main_cst : FVec F S_ .f32 := constant S_ .f32 0x7F800000#32
  let main_v1 : FVec F S128x270x3000 .f32 := broadcastInDim S128x270x3000 ![] bcast_S_S128x270x3000 main_cst
  let main_v2 : IVec S128x270x3000 1 := cmpf .olt main_v0 main_v1
  let main_c : IVec S_ 1 := constantI S_ 1 1#1
  let main_v3 : IVec S_ 1 := (fun x v => Host.reduce IntOp.andi x v reducesTo_S128x270x3000_S_d0_1_2 h_S_) main_v2 main_c
  let main_v4 : FVec F S100x270x270 .f32 := Host.absf main_arg2
  let main_cst_0 : FVec F S_ .f32 := constant S_ .f32 0x7F800000#32
  let main_v5 : FVec F S100x270x270 .f32 := broadcastInDim S100x270x270 ![] bcast_S_S100x270x270 main_cst_0
  let main_v6 : IVec S100x270x270 1 := cmpf .olt main_v4 main_v5
  let main_c_1 : IVec S_ 1 := constantI S_ 1 1#1
  let main_v7 : IVec S_ 1 := (fun x v => Host.reduce IntOp.andi x v reducesTo_S100x270x270_S_d0_1_2 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg1 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  main_v12
-- ==== Kernel.lean ====
abbrev S128x270x3000 : Shape := ⟨3, ![128, 270, 3000]⟩
abbrev S128 : Shape := ⟨1, ![128]⟩
abbrev S100x270x270 : Shape := ⟨3, ![100, 270, 270]⟩
abbrev S_ : Shape := ⟨0, ![]⟩
abbrev S1x270x3000 : Shape := ⟨3, ![1, 270, 3000]⟩
abbrev S1x270x270 : Shape := ⟨3, ![1, 270, 270]⟩
abbrev S1 : Shape := ⟨1, ![1]⟩
abbrev S270x3000 : Shape := ⟨2, ![270, 3000]⟩
abbrev S270x270 : Shape := ⟨2, ![270, 270]⟩

abbrev nBuf : Space → Nat
  | .hbm => 21
  | .vmem => 6
  | .smem => 2
  | _ => 0

abbrev bufTy : (tb : Table) → Fin (tcTables nBuf tb) → BufTy
  | .hbm, ⟨0, _⟩ => ⟨S128x270x3000, .f32⟩
  | .hbm, ⟨1, _⟩ => ⟨S128, .i32⟩
  | .hbm, ⟨2, _⟩ => ⟨S100x270x270, .f32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S128, .i32⟩
  | .hbm, ⟨19, _⟩ => ⟨S100x270x270, .bf16⟩
  | .hbm, ⟨20, _⟩ => ⟨S128x270x3000, .f32⟩
  | .local _ .vmem, ⟨0, _⟩ => ⟨S1x270x3000, .f32⟩
  | .local _ .vmem, ⟨1, _⟩ => ⟨S1x270x3000, .f32⟩
  | .local _ .vmem, ⟨2, _⟩ => ⟨S1x270x270, .bf16⟩
  | .local _ .vmem, ⟨3, _⟩ => ⟨S1x270x270, .bf16⟩
  | .local _ .vmem, ⟨4, _⟩ => ⟨S1x270x3000, .f32⟩
  | .local _ .vmem, ⟨5, _⟩ => ⟨S1x270x3000, .f32⟩
  | .local _ .smem, ⟨0, _⟩ => ⟨S128, .i32⟩
  | .local _ .smem, ⟨1, _⟩ => ⟨S128, .i32⟩
  | _, _ => ⟨S128x270x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_v10 : Ref sig .tc := ⟨.hbm, 20, rfl⟩
abbrev main_v7 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_v7.idx, main_v8.idx], fun | 0 => main_v7.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .ne v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x270x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x270x270 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x270x3000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  natLt_1_32 : 1 < 32
  bitsLt_bf16_f32 : FTy.bits .bf16 < FTy.bits .f32
  numel1_S1 : S1.numel = 1
  inb_S1x270x3000_S1x270x3000_0_0_0 : ∀ a, (![0, 0, 0] : Fin 3 → Nat) a + S1x270x3000.size a ≤ S1x270x3000.size a
  h_S1x270x3000 : 0 < S1x270x3000.numel
  shapeCasts_S1x270x3000_S270x3000 : S1x270x3000.ShapeCasts S270x3000
  shapeCasts_S270x3000_S1x270x3000 : S270x3000.ShapeCasts S1x270x3000
  inb_S1x270x270_S1x270x270_0_0_0 : ∀ a, (![0, 0, 0] : Fin 3 → Nat) a + S1x270x270.size a ≤ S1x270x270.size a
  h_S1x270x270 : 0 < S1x270x270.numel
  shapeCasts_S1x270x270_S270x270 : S1x270x270.ShapeCasts S270x270
  dot_S270x270_S270x3000_S270x3000_1_0_0_1_n_n_wf : DotDims.WF S270x270 S270x3000 S270x3000 [1] [0] [0] [1] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x270x3000.size a ≤ S128x270x3000.size a
  hwx0_0 : ∀ i : grid0.Coords, EltTy.bits .f32 = 32 ∨ (Rect.block (s := S128x270x3000) S1x270x3000.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x270x3000.size a ≤ S128x270x3000.size a
  hwx0_2 : ∀ i : grid0.Coords, EltTy.bits .f32 = 32 ∨ (Rect.block (s := S128x270x3000) S1x270x3000.size (cc0_transform_2 i) (hinb0_2 i)).WholeWords (EltTy.packing .f32)

variable [Facts₀]

def dot_S270x270_S270x3000_S270x3000_1_0_0_1_n_n : DotDims S270x270 S270x3000 S270x3000 where
  lhsContracting := [1]
  rhsContracting := [0]
  lhsNonContracting := [0]
  rhsNonContracting := [1]
  lhsBatch := []
  rhsBatch := []
  wf := dot_S270x270_S270x3000_S270x3000_1_0_0_1_n_n_wf

abbrev spec0_0 : Pipeline.WinSpec sig grid0.rank :=
  Pipeline.WinSpec.ofSpec (Memref.whole main_arg0) S1x270x3000.size reads0_0 false false 2 stage0_0 sem0_0 nbuf0_0 hstage0_0

abbrev spec0_1 : Pipeline.WinSpec sig grid0.rank :=
  Pipeline.WinSpec.ofSpec (Memref.whole main_v9) S1x270x270.size reads0_1 false false 2 stage0_1 sem0_1 nbuf0_1 hstage0_1

abbrev spec0_2 : Pipeline.WinSpec sig grid0.rank :=
  Pipeline.WinSpec.ofSpec (Memref.whole main_v10) S1x270x3000.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x270x270.size a ≤ S100x270x270.size a), EltTy.bits .bf16 = 32 ∨ (Rect.block (s := S100x270x270) S1x270x270.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 (pf.atD 1 (k0_off1 i)) == 1#1) && !(k0_cond2 (pf.atD 1 (k0_off1 i)) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x270x3000 : Shape := ⟨3, ![128, 270, 3000]⟩
abbrev S128 : Shape := ⟨1, ![128]⟩
abbrev S100x270x270 : Shape := ⟨3, ![100, 270, 270]⟩
abbrev S_ : Shape := ⟨0, ![]⟩
abbrev S1x270x270 : Shape := ⟨3, ![1, 270, 270]⟩
abbrev S101x270x270 : Shape := ⟨3, ![101, 270, 270]⟩
abbrev S128x1 : Shape := ⟨2, ![128, 1]⟩
abbrev S128x270x270 : Shape := ⟨3, ![128, 270, 270]⟩

abbrev nBuf : Space → Nat
  | .hbm => 23
  | .vmem => 0
  | .smem => 0
  | _ => 0

abbrev bufTy : (tb : Table) → Fin (tcTables nBuf tb) → BufTy
  | .hbm, ⟨0, _⟩ => ⟨S128x270x3000, .f32⟩
  | .hbm, ⟨1, _⟩ => ⟨S128, .i32⟩
  | .hbm, ⟨2, _⟩ => ⟨S100x270x270, .f32⟩
  | .hbm, ⟨3, _⟩ => ⟨S_, .f32⟩
  | .hbm, ⟨4, _⟩ => ⟨S1x270x270, .f32⟩
  | .hbm, ⟨5, _⟩ => ⟨S101x270x270, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128x270x270, .f32⟩
  | .hbm, ⟨22, _⟩ => ⟨S128x270x3000, .f32⟩
  | _, _ => ⟨S128x270x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S1x270x270 : S_.BroadcastsInDim S1x270x270 (![] : Fin 0 → Fin S1x270x270.rank)
  concatenates_S1x270x270_S100x270x270_S101x270x270_d0 : Shape.Concatenates [S1x270x270, S100x270x270] S101x270x270 0
  bcast_S_S128 : S_.BroadcastsInDim S128 (![] : Fin 0 → Fin S128.rank)
  bcast_S128_S128x1_0 : S128.BroadcastsInDim S128x1 (![0] : Fin 1 → Fin S128x1.rank)
  gather_S101x270x270_S128x1_S128x270x270_12_0_n_n_0_1_1270270_wf : GatherDims.WF S101x270x270 S128x1 S128x270x270 [1, 2] [0] [] [0] [] 1 ![1, 270, 270]
  dot_S128x270x270_S128x270x3000_S128x270x3000_2_1_1_2_0_0_wf : DotDims.WF S128x270x270 S128x270x3000 S128x270x3000 [2] [1] [1] [2] [0] [0]

variable [Facts₀]

def gather_S101x270x270_S128x1_S128x270x270_12_0_n_n_0_1_1270270 : GatherDims S101x270x270 S128x1 S128x270x270 where
  offsetDims := [1, 2]
  collapsedSliceDims := [0]
  operandBatchingDims := []
  startIndicesBatchingDims := []
  startIndexMap := [0]
  indexVectorDim := 1
  sliceSizes := ![1, 270, 270]
  wf := gather_S101x270x270_S128x1_S128x270x270_12_0_n_n_0_1_1270270_wf
def dot_S128x270x270_S128x270x3000_S128x270x3000_2_1_1_2_0_0 : DotDims S128x270x270 S128x270x3000 S128x270x3000 where
  lhsContracting := [2]
  rhsContracting := [1]
  lhsNonContracting := [1]
  rhsNonContracting := [2]
  lhsBatch := [0]
  rhsBatch := [0]
  wf := dot_S128x270x270_S128x270x3000_S128x270x3000_2_1_1_2_0_0_wf

class Facts : Prop extends Facts₀ where

variable [Facts]
-- ==== Proof.K.Setup.lean ====
/-
  The program up to its one kernel region, and what the region is entered with.

  @main first computes, from the subject words, two tables of 128 words each (a row index into the weight bank and a
  0/1 gate) and a copy of the bank in the narrower float format; then it runs the kernel over a grid of 128 points, one
  per sample. The region finds every buffer at the fold `V` of those host operations over the launch memory. The two
  tables are handed to the kernel whole; window 0 stages sample `t`, window 1 the bank row the first table names at
  `t`, window 2 is the result's block `t`, written back at every point.
-/
import proofs.«426693_j83056077570346_2_alg».proof.Proof.Gen.Kernel.Launch
import proofs.«426693_j83056077570346_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is those stretches and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the samples: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- Nor the subject words. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- Nor the weight bank. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-! ## The two tables, read off the region-entry contents -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The pipeline's side condition of the tables: the bank row the first table names lies inside the bank, at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it: its whole buffer. -/
abbrev tbM0 : Memref sig .tc .smem S128 .i32 := Memref.whole main_v7
abbrev htbM0 : tbM0.IsWhole := Memref.isWhole_whole _
abbrev tbM1 : Memref sig .tc .smem S128 .i32 := Memref.whole main_v8
abbrev htbM1 : tbM1.IsWhole := Memref.isWhole_whole _

abbrev TbBuf0 (c : Dev nD) {S : Shape} {e : EltTy} (M : Memref sig .tc .smem S e) : Type := Buf (Elt F) (M.view.loc (c : Thread nD τ))
/-- A table held read-only: at half the full share. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0 (tbl m 0) ∗ tbPt0 c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The gate word the body loads at grid point `i` from the second table held at contents `xt1`. -/
abbrev gateWord (c : Dev nD) (xt1 : TbBuf0 (F := F) c tbM1) (i : grid0.Coords) : BitVec 32 :=
  tbM1.view.readAt (Elt F) (Rect.unit (s := S128) (k0_off1 i) S1.size (k0_off1_inb i)).toLoadRect xt1 (Shape.Idx.first (numel1_S1.symm ▸ Nat.one_pos))

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof data
    whose array is `V`'s and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result's window is written back at every point, whatever the tables hold: its index map is the grid coordinate. -/
theorem flush0_2 (a : (pcfg0 (F := F)).Adm) : ∀ t : Fin (cfg0 a).N, ((cfg0 a).win 2).flush t = true :=
  (by decide +kernel : ∀ t : Fin grid0.N, Pipeline.Window.flushOf grid0 true cc0_transform_2 t = true)

/-- Each window's current staging memref at point `t`, as the pipeline passes it to the body, and its wholeness. -/
abbrev ms0_0 (hO : Ok m) (t : Fin (cfgM m hO).N) : Memref sig .tc .vmem S1x270x3000 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x270x270 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x270x3000 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point `t`, on what the pipeline calls it with. -/
abbrev bodyAt0 (a : (pcfg0 (F := F)).Adm) (t : Fin (cfg0 a).N) : Prog (TpuEff nD τ sig (Elt F) Λ₀ .tc) PUnit :=
  cc0__moe_kernel (grid0.coords t) (Memref.whole main_v7) (Memref.isWhole_whole _) (Memref.whole main_v8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- The offsets `![0, 0, 0]` of the body's whole-block loads and stores are zero on every axis. -/
theorem hz3 : (![0, 0, 0] : Fin 3 → Nat) = fun _ => 0 := by
  funext a; match a with | ⟨0, _⟩ => rfl | ⟨1, _⟩ => rfl | ⟨2, _⟩ => rfl

end Cert.Kernel.Hand

end
-- ==== Proof.K.Run.lean ====
/-
  The kernel body, run once for each of its two cases, on any staging memrefs.

  The body loads the gate word of its grid point from the second table. If the word is zero it stores the zero block
  into the result's buffer and skips the second branch; otherwise it skips the first branch, loads the sample block and
  the weight block, and stores their product. Either way the inputs' buffers and the tables are handed back as found.
-/
import proofs.«426693_j83056077570346_2_alg».proof.Proof.K.Setup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The gate word is zero: the result's buffer ends at the zero block. -/
theorem run_zero (c : Dev nD) (i : grid0.Coords) (arg3 : Memref sig .tc .vmem S1x270x3000 .f32) (harg3 : arg3.IsWhole)
    (arg4 : Memref sig .tc .vmem S1x270x270 .bf16) (harg4 : arg4.IsWhole) (arg5 : Memref sig .tc .vmem S1x270x3000 .f32) (harg5 : arg5.IsWhole)
    (x0 : Vec F S1x270x3000 .f32) (x1 : Vec F S1x270x270 .bf16) (xt0 : TbBuf0 (F := F) c tbM0) (xt1 : TbBuf0 (F := F) c tbM1)
    (hc1 : k0_cond1 (gateWord c xt1 i) = 1#1) (hc2 : ¬ k0_cond2 (gateWord c xt1 i) = 1#1)
    (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0 xt0 ∗ tbPt0 c tbM1 xt1
        ∗ (iprop(owns (c : Thread nD τ) arg3 fullShare x0 ∗ owns (c : Thread nD τ) arg4 fullShare x1
            ∗ owns (c : Thread nD τ) arg5 fullShare (k0_pay1 (F := F)) ∗ tbPt0 c tbM0 xt0 ∗ tbPt0 c tbM1 xt1) -∗ K ⟨⟩))
      ⊢ wp frame (wpE (defs₀ (F := F)) Variants.none c none) E (cc0__moe_kernel i tbM0 htbM0 tbM1 htbM1 arg3 harg3 arg4 harg4 arg5 harg5) K := by
  simp only [cc0__moe_kernel_eq_skeleton]; unfold cc0__moe_kernel_skel
  unfold owns
  iintro ⟨⟨%f0, %hf0, H0⟩, ⟨%f1, %hf1, H1⟩, ⟨%d2, %f2, -, H2⟩, HT0, HT1, Hk⟩
  obtain rfl := harg3.eq_unread hf0
  obtain rfl := harg4.eq_unread hf1
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_singleton_self _, View.mem_set_unit_zero hz3 inb_S1x270x3000_S1x270x3000_0_0_0 y⟩), View.canon_unit_zero hz3]
  isplitl [HT0]; · iexact HT0
  iexact HT1

set_option maxHeartbeats 1000000 in
/-- The gate word is not zero: the result's buffer ends at the product of the weight block with the sample block. -/
theorem run_mm (c : Dev nD) (i : grid0.Coords) (arg3 : Memref sig .tc .vmem S1x270x3000 .f32) (harg3 : arg3.IsWhole)
    (arg4 : Memref sig .tc .vmem S1x270x270 .bf16) (harg4 : arg4.IsWhole) (arg5 : Memref sig .tc .vmem S1x270x3000 .f32) (harg5 : arg5.IsWhole)
    (x0 : Vec F S1x270x3000 .f32) (x1 : Vec F S1x270x270 .bf16) (xt0 : TbBuf0 (F := F) c tbM0) (xt1 : TbBuf0 (F := F) c tbM1)
    (hc1 : ¬ k0_cond1 (gateWord c xt1 i) = 1#1) (hc2 : k0_cond2 (gateWord c xt1 i) = 1#1)
    (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0 xt0 ∗ tbPt0 c tbM1 xt1
        ∗ (iprop(owns (c : Thread nD τ) arg3 fullShare x0 ∗ owns (c : Thread nD τ) arg4 fullShare x1
            ∗ owns (c : Thread nD τ) arg5 fullShare (k0_pay2 x0 x1) ∗ tbPt0 c tbM0 xt0 ∗ tbPt0 c tbM1 xt1) -∗ K ⟨⟩))
      ⊢ wp frame (wpE (defs₀ (F := F)) Variants.none c none) E (cc0__moe_kernel i tbM0 htbM0 tbM1 htbM1 arg3 harg3 arg4 harg4 arg5 harg5) K := by
  simp only [cc0__moe_kernel_eq_skeleton]; unfold cc0__moe_kernel_skel
  unfold owns
  iintro ⟨⟨%f0, %hf0, H0⟩, ⟨%f1, %hf1, H1⟩, ⟨%d2, %f2, -, H2⟩, HT0, HT1, Hk⟩
  obtain rfl := harg3.eq_unread hf0
  obtain rfl := harg4.eq_unread hf1
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_singleton_self _, View.mem_set_unit_zero hz3 inb_S1x270x3000_S1x270x3000_0_0_0 y⟩), View.canon_unit_zero hz3]
    simp only [View.readAt_eq_ld, harg3.read_unread, harg4.read_unread, View.ld_unit_zero (S := S1x270x3000) hz3, View.ld_unit_zero (S := S1x270x270) hz3]
  isplitl [HT0]; · iexact HT0
  iexact HT1

end Cert.Kernel.Hand

end
-- ==== Proof.K.Tables.lean ====
/-
  The two tables and the bank copy the host operations compute, word by word, and the pipeline's side condition of them.

  For a subject word `v` (read signed): `ssafe v = 0` if `v ≥ 101` else `v`; the gate is `1` if `ssafe v ≥ 1` else `0`;
  the row index is `ssafe v - 1` if `ssafe v ≥ 1` else `0`. So the gate is `1` exactly for `1 ≤ v ≤ 100`, and the row
  index is then `v - 1`, below 100; otherwise both are `0`. Whatever the subject words are, the row index stays inside
  the bank, which is the pipeline's side condition. The body's two conditions test the gate word against zero: exactly
  one of them holds at every word.
-/
import proofs.«426693_j83056077570346_2_alg».proof.Proof.K.Setup
import Idealize.ShloMosaic.Lib.ValueIdx
import Idealize.ShloMosaic.Lib.StableHlo.Run
import Idealize.ShloMosaic.Lib.StableHlo.Predicate

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-! ## Words -/

/-- The subject word with every value of 101 or more sent to the identity slot 0. -/
def ssafeW (v : BitVec 32) : BitVec 32 := Scalar.select (IntOp.cmpi .sge v 101#32) 0#32 v
/-- The gate word: 1 when the safe word is at least 1. -/
def gateW (v : BitVec 32) : BitVec 32 := BitVec.zeroExtend 32 (IntOp.cmpi .sge (ssafeW v) 1#32)
/-- The row-index word. -/
def idxW (v : BitVec 32) : BitVec 32 := Scalar.select (IntOp.cmpi .sge (ssafeW v) 1#32) (IntOp.subi (ssafeW v) 1#32) 0#32

/-- The bit of a signed "at least": 1 exactly when the second word, read signed, is at most the first. -/
private theorem sge_bit (x y : BitVec 32) : IntOp.cmpi .sge x y = if y.toInt ≤ x.toInt then 1#1 else 0#1 := by
  show BitVec.ofBool (y.sle x) = _
  rw [BitVec.sle_eq_decide]
  by_cases h : y.toInt ≤ x.toInt
  · rw [if_pos h, decide_eq_true h]; rfl
  · rw [if_neg h, decide_eq_false h]; rfl

/-- A select on the bit of a decidable condition is the "if" on the condition. -/
private theorem select_bit {α : Type} (p : Prop) [Decidable p] (a b : α) :
    Scalar.select (if p then 1#1 else 0#1) a b = if p then a else b := by
  by_cases h : p
  · rw [if_pos h, if_pos h]; exact select_one a b
  · rw [if_neg h, if_neg h]; exact select_zero a b

private theorem toInt_101 : (101#32 : BitVec 32).toInt = 101 := by decide
private theorem toInt_1 : (1#32 : BitVec 32).toInt = 1 := by decide

/-- The safe word is 0 from 101 on, and the word itself below. -/
theorem ssafeW_eq (v : BitVec 32) : ssafeW v = if 101 ≤ v.toInt then 0#32 else v := by
  unfold ssafeW
  rw [sge_bit, select_bit, toInt_101]
theorem ssafeW_of_ge {v : BitVec 32} (h : 101 ≤ v.toInt) : ssafeW v = 0#32 := by rw [ssafeW_eq, if_pos h]
theorem ssafeW_of_lt {v : BitVec 32} (h : ¬ 101 ≤ v.toInt) : ssafeW v = v := by rw [ssafeW_eq, if_neg h]

/-- The safe word is at least 1 exactly when the word lies in 1 … 100. -/
theorem sge1_bit (v : BitVec 32) :
    IntOp.cmpi .sge (ssafeW v) 1#32 = if 1 ≤ v.toInt ∧ v.toInt ≤ 100 then 1#1 else 0#1 := by
  rw [sge_bit, toInt_1]
  by_cases h : 101 ≤ v.toInt
  · have c : ¬ (1 ≤ v.toInt ∧ v.toInt ≤ 100) := by omega
    have z : ¬ (1 : Int) ≤ (0#32 : BitVec 32).toInt := by rw [BitVec.toInt_zero]; omega
    rw [ssafeW_of_ge h, if_neg z, if_neg c]
  · rw [ssafeW_of_lt h]
    by_cases h' : 1 ≤ v.toInt
    · have c : 1 ≤ v.toInt ∧ v.toInt ≤ 100 := ⟨h', by omega⟩
      rw [if_pos h', if_pos c]
    · have c : ¬ (1 ≤ v.toInt ∧ v.toInt ≤ 100) := fun c => h' c.1
      rw [if_neg h', if_neg c]

theorem gateW_eq (v : BitVec 32) : gateW v = if 1 ≤ v.toInt ∧ v.toInt ≤ 100 then 1#32 else 0#32 := by
  unfold gateW
  rw [sge1_bit]
  by_cases c : 1 ≤ v.toInt ∧ v.toInt ≤ 100
  · rw [if_pos c, if_pos c]; decide
  · rw [if_neg c, if_neg c]; decide

/-- The row-index word is the word less one inside 1 … 100, and 0 outside. -/
theorem idxW_eq (v : BitVec 32) : idxW v = if 1 ≤ v.toInt ∧ v.toInt ≤ 100 then v - 1#32 else 0#32 := by
  unfold idxW
  rw [sge1_bit, select_bit]
  by_cases c : 1 ≤ v.toInt ∧ v.toInt ≤ 100
  · have h : ¬ 101 ≤ v.toInt := by omega
    rw [if_pos c, if_pos c, ssafeW_of_lt h]; rfl
  · rw [if_neg c, if_neg c]

/-- A word that is non-negative read signed reads the same unsigned. -/
private theorem toNat_of_nonneg (v : BitVec 32) (h : 0 ≤ v.toInt) : (v.toNat : Int) = v.toInt := by
  have h1 := BitVec.toInt_eq_toNat_cond v
  have h2 : v.toNat < 2 ^ 32 := v.isLt
  split at h1
  · omega
  · omega

theorem idxW_toNat (v : BitVec 32) : (idxW v).toNat = if 1 ≤ v.toInt ∧ v.toInt ≤ 100 then (v.toInt - 1).toNat else 0 := by
  rw [idxW_eq]
  by_cases c : 1 ≤ v.toInt ∧ v.toInt ≤ 100
  · rw [if_pos c, if_pos c, BitVec.toNat_sub]
    have hn := toNat_of_nonneg v (by omega)
    have h2 : v.toNat < 2 ^ 32 := v.isLt
    have e1 : (1#32 : BitVec 32).toNat = 1 := rfl
    rw [e1]
    omega
  · rw [if_neg c, if_neg c]; rfl
theorem idxW_lt (v : BitVec 32) : (idxW v).toNat < 100 := by
  rw [idxW_toNat]
  by_cases c : 1 ≤ v.toInt ∧ v.toInt ≤ 100
  · rw [if_pos c]; omega
  · rw [if_neg c]; omega

/-- The body's first condition holds exactly at a zero gate word; -/
theorem cond1_iff (w : BitVec 32) : k0_cond1 w = 1#1 ↔ w = 0#32 := by
  show BitVec.ofBool ((BitVec.ofBool (w == 0#32)).setWidth 32 != 0#32) = 1#1 ↔ _
  by_cases h : w = 0#32
  · subst h; decide
  · have hb : (w == 0#32) = false := beq_eq_false_iff_ne.mpr h
    rw [hb]
    exact ⟨fun h' => absurd h' (by decide), fun h' => absurd h' h⟩
/-- its second exactly at a nonzero one. -/
theorem cond2_iff (w : BitVec 32) : k0_cond2 w = 1#1 ↔ w ≠ 0#32 := by
  show BitVec.ofBool ((BitVec.ofBool (w != 0#32)).setWidth 32 != 0#32) = 1#1 ↔ _
  by_cases h : w = 0#32
  · subst h; decide
  · have hb : (w != 0#32) = true := bne_iff_ne.mpr h
    rw [hb]
    exact ⟨fun _ => h, fun _ => by decide⟩

/-! ## The tables and the bank copy as the region finds them -/

/-- The subject words on core `c`. -/
abbrev subjOf (c : Dev nD) : IVec S128 32 := m ((c : Thread nD τ).loc main_arg1)

/-- The first table, whole: the row-index word of every subject word. -/
theorem V_rowTable (c : Dev nD) : (V m c main_v7 : IVec S128 32) = fun i => idxW (subjOf m c i) := by
  dsimp only [V]
  simp only [hostOps0, hostOps0_1, hostOps0_2, hostOps0_3, hostOps0_4, List.flatten_cons, List.flatten_nil, List.append_nil, List.cons_append,
    List.nil_append]
  after_results
  try simp only [StableHlo.TRef.ofBuf, StableHlo.TRef.toBuf, cast_eq]
  rfl
/-- The second table, whole: the gate word of every subject word. -/
theorem V_gateTable (c : Dev nD) : (V m c main_v8 : IVec S128 32) = fun i => gateW (subjOf m c i) := by
  dsimp only [V]
  simp only [hostOps0, hostOps0_1, hostOps0_2, hostOps0_3, hostOps0_4, List.flatten_cons, List.flatten_nil, List.append_nil, List.cons_append,
    List.nil_append]
  after_results
  try simp only [StableHlo.TRef.ofBuf, StableHlo.TRef.toBuf, cast_eq]
  rfl

theorem tbl0_word (b : Fin 128) : (tbl m 0 : IVec S128 32) (ix1 b) = idxW (subjOf m 0 (ix1 b)) :=
  congrFun (V_rowTable m 0) (ix1 b)
theorem tbl1_word (b : Fin 128) : (tbl m 1 : IVec S128 32) (ix1 b) = gateW (subjOf m 0 (ix1 b)) :=
  congrFun (V_gateTable m 0) (ix1 b)

/-- The one word of a 128-word table under a one-word rectangle at offset `b`: the index `b`. -/
private theorem unit_idx (off : Fin 1 → Nat) (b : Fin 128) (hoff : off 0 = b.val) (inb : ∀ a, off a + S1.size a ≤ S128.size a)
    (x : (Rect.unit (s := S128) off S1.size inb).toLoadRect.shape.Idx) :
    (Rect.unit (s := S128) off S1.size inb).toLoadRect.idx x = ix1 b := by
  funext a
  match a with
  | ⟨0, h⟩ =>
    apply Fin.ext
    have hx : (x ⟨0, h⟩).val < 1 := (x ⟨0, h⟩).isLt
    show off 0 + 1 * (x ⟨0, h⟩).val = b.val
    omega

/-- The offset the body and window 1's index map load their table word at is the grid coordinate. -/
private theorem off1_zero (i : grid0.Coords) : k0_off1 i 0 = (i 0).val := congrFun (k0_off1_eq i) 0

/-- The gate word the body loads at a grid point is the second table's word there. -/
theorem gateWord_eq (xt1 : TbBuf0 (F := F) (0 : Dev nD) tbM1) (i : grid0.Coords) :
    gateWord (0 : Dev nD) xt1 i = (xt1 : IVec S128 32) (ix1 (i 0)) := by
  have e := unit_idx (k0_off1 i) (i 0) (off1_zero i) (k0_off1_inb i) (Shape.Idx.first (numel1_S1.symm ▸ Nat.one_pos))
  show (xt1 : IVec S128 32) ((Rect.unit (s := S128) (k0_off1 i) S1.size (k0_off1_inb i)).toLoadRect.idx
    (Shape.Idx.first (numel1_S1.symm ▸ Nat.one_pos))) = _
  rw [e]

/-- Window 1's block index at a grid point: the first table's word there, and zeros. -/
theorem rowIdx_eq (pf : pre0.Contents (Elt F)) (i : grid0.Coords) :
    cc0_transform_1 (F := F) k0_off1_inb numel1_S1 pf i = ![((pf 0 : IVec S128 32) (ix1 (i 0))).toNat, 0, 0] := by
  have e := unit_idx (k0_off1 i) (i 0) (off1_zero i) (k0_off1_inb i) (Shape.Idx.first (numel1_S1.symm ▸ Nat.one_pos))
  show (![((pf 0 : IVec S128 32) ((Rect.unit (s := S128) (k0_off1 i) S1.size (k0_off1_inb i)).toLoadRect.idx
    (Shape.Idx.first (numel1_S1.symm ▸ Nat.one_pos)))).toNat, 0, 0] : Fin 3 → Nat) = _
  rw [e]

/-- The side condition holds of any tables whose first names a bank row at every word: the block then lies inside the
    bank, and it takes every row of its one slab, so its words are whole at any packing. -/
theorem ok_of_lt (pf : pre0.Contents (Elt F)) (h : ∀ b : Fin 128, ((pf 0 : IVec S128 32) (ix1 b)).toNat < 100) : ok0 pf := by
  unfold ok0
  intro i
  have hlt := h (i 0)
  rw [rowIdx_eq pf i]
  generalize ((pf 0 : IVec S128 32) (ix1 (i 0))).toNat = k at hlt ⊢
  have hin : ∀ a, ((![k, 0, 0] : Fin 3 → Nat) a + 1) * S1x270x270.size a ≤ S100x270x270.size a := by
    intro a
    match a with
    | ⟨0, _⟩ => show (k + 1) * 1 ≤ 100; omega
    | ⟨1, _⟩ => show (0 + 1) * 270 ≤ 270; omega
    | ⟨2, _⟩ => show (0 + 1) * 270 ≤ 270; omega
  refine ⟨hin, Or.inr ?_⟩
  unfold Rect.WholeWords
  exact Or.inr ⟨by decide, rfl, rfl, rfl⟩

/-- The pipeline's side condition holds whatever the launch memory is. -/
theorem ok_all : Ok m :=
  ok_of_lt (tbl m) fun b => by rw [tbl0_word m b]; exact idxW_lt _

/-- The bank copy the region finds is the bank, its float format narrowed. -/
theorem V_bank (c : Dev nD) : (V m c main_v9 : FVec F S100x270x270 .bf16) = truncf .bf16 (m ((c : Thread nD τ).loc main_arg2) : FVec F S100x270x270 .f32) bitsLt_bf16_f32 := by
  dsimp only [V]
  simp only [hostOps0, hostOps0_1, hostOps0_2, hostOps0_3, hostOps0_4, List.flatten_cons, List.flatten_nil, List.append_nil, List.cons_append,
    List.nil_append]
  after_results

end Cert.Kernel.Hand

end
-- ==== Proof.K.Frame.lean ====
/-
  The kernel region's proof data and the run of @main.

  After the body at point `t` the two input windows' buffers still hold their blocks, and the result's buffer holds the
  zero block when the gate word of `t` is zero and the product of the weight block with the sample block otherwise.
  Exactly one of the body's two conditions holds at every gate word, so the body always stores the result's block; the
  block is written back at every point. The launch then says: every execution of @main terminates, the result array is
  the entry contents overwritten block by block with those values, and every other buffer is as the region found it — in
  particular the three argument arrays, which no host operation writes.
-/
import proofs.«426693_j83056077570346_2_alg».proof.Proof.K.Run
import proofs.«426693_j83056077570346_2_alg».proof.Proof.K.Tables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result's buffer holds after each point -/

/-- The gate word of point `t`, as the body reads it from the second table. -/
abbrev gateAt (hO : Ok m) (c : Dev nD) (t : Fin (cfgM m hO).N) : BitVec 32 := gateWord c (tbl m 1) (grid0.coords t)

/-- The zero block at a zero gate word, else the weight block times the sample block. -/
def outAt (hO : Ok m) (c : Dev nD) (t : Fin (cfgM m hO).N) : Vec F S1x270x3000 .f32 :=
  if k0_cond1 (gateAt m hO c t) = 1#1 then k0_pay1 (F := F) else k0_pay2 (iblk m hO c 0 t) (iblk m hO c 1 t)

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation -/

/-- The result's buffer at what the body left is what the obligation asks of it: the point writes the block back. -/
theorem leaves2 (hO : Ok m) (c : Dev nD) (t : Fin (cfgM m hO).N) :
    owns (c : Thread nD τ) (ms0_2 m hO t) fullShare ((dats m hO 0 c).after 2 t) ⊢ ((dats m hO 0 c).leavesExact 2 t : sProp 𝕄) := by
  unfold Dat.leavesExact
  rw [flush0_2 (adm m hO) t]
  cases (cfgM m hO).idle 2 ((cfgM m hO).grid.coords t) <;> exact .rfl

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ (dats m hO 0 c).leavesExact 2 t)

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1]
  rw [show (dats m hO 0 c).Φ t.castSucc = iprop(Pipeline.ΦA spec0 c ∗ Pipeline.ΦT pre0 (tbl m) c) from rfl, PhiT0_eq]
  by_cases hc : k0_cond1 (gateAt m hO c t) = 1#1
  · have hc2 : ¬ k0_cond2 (gateAt m hO c t) = 1#1 := fun h => (cond2_iff _).mp h ((cond1_iff _).mp hc)
    have hout : (dats m hO 0 c).after 2 t = k0_pay1 (F := F) := by rw [after0_2]; unfold outAt; rw [if_pos hc]
    iintro ⟨⟨HΦ, ⟨HT0, HT1⟩⟩, Ho, ⟨%d0, H0⟩, ⟨%d1, H1⟩, ⟨%d2, H2⟩⟩
    iapply (run_zero c (grid0.coords t) _ _ _ _ _ _ (iblk m hO c 0 t) (iblk m hO c 1 t) (tbl m 0) (tbl m 1) hc hc2 Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iapply (leaves2 m hO c t)
    rw [hout]
    iexact H2
  · have hc2 : k0_cond2 (gateAt m hO c t) = 1#1 := (cond2_iff _).mpr fun h => hc ((cond1_iff _).mpr h)
    have hout : (dats m hO 0 c).after 2 t = k0_pay2 (iblk m hO c 0 t) (iblk m hO c 1 t) := by rw [after0_2]; unfold outAt; rw [if_neg hc]
    iintro ⟨⟨HΦ, ⟨HT0, HT1⟩⟩, Ho, ⟨%d0, H0⟩, ⟨%d1, H1⟩, ⟨%d2, H2⟩⟩
    iapply (run_mm c (grid0.coords t) _ _ _ _ _ _ (iblk m hO c 0 t) (iblk m hO c 1 t) (tbl m 0) (tbl m 1) hc hc2 Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iapply (leaves2 m hO c t)
    rw [hout]
    iexact H2

theorem body_obligation (hO : Ok m) (c : Dev nD) : BodyObligation (dats (F := F) m hO 0 c) (defs₀ (F := F)) Variants.none () Set.univ := fun t => by
  rw [bigSep_W0, bigSep_W0]
  exact sound_body m hO c t

/-! ## The run -/

set_option backward.isDefEq.respectTransparency.types false in
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run with its results named: the result array at the blocks the points wrote back over its entry contents, the three
    argument arrays as launched. -/
theorem run_named (hO : Ok m) : θ_run defs (onTc (τ := τ) (main (F := F))) ⟨m, fun _ => 0, ρ⟩ (fun r => ∀ c : Dev nD,
      r.2.mem ((c.tc : Thread nD τ).loc main_v10) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 2,
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) (run_main m ρ hO)

/-- The frame: @main terminates without a fault and its argument arrays end unchanged, whatever the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ (ok_all m))

end Cert.Kernel.Hand

end
-- ==== Proof.KI.Setup.lean ====
/-
  The program up to its one kernel region, and what the region is entered with.

  @main first computes, from the subject words, two tables of 128 words each (a row index into the weight bank and a
  0/1 gate) and a copy of the bank in the narrower float format; then it runs the kernel over a grid of 128 points, one
  per sample. The region finds every buffer at the fold `V` of those host operations over the launch memory. The two
  tables are handed to the kernel whole; window 0 stages sample `t`, window 1 the bank row the first table names at
  `t`, window 2 is the result's block `t`, written back at every point.
-/
import proofs.«426693_j83056077570346_2_alg».proof.Proof.Gen.KernelIdeal.Launch
import proofs.«426693_j83056077570346_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is those stretches and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the samples: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- Nor the subject words. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- Nor the weight bank. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-! ## The two tables, read off the region-entry contents -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The pipeline's side condition of the tables: the bank row the first table names lies inside the bank, at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it: its whole buffer. -/
abbrev tbM0 : Memref sig .tc .smem S128 .i32 := Memref.whole main_v7
abbrev htbM0 : tbM0.IsWhole := Memref.isWhole_whole _
abbrev tbM1 : Memref sig .tc .smem S128 .i32 := Memref.whole main_v8
abbrev htbM1 : tbM1.IsWhole := Memref.isWhole_whole _

abbrev TbBuf0 (c : Dev nD) {S : Shape} {e : EltTy} (M : Memref sig .tc .smem S e) : Type := Buf (Elt F) (M.view.loc (c : Thread nD τ))
/-- A table held read-only: at half the full share. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0 (tbl m 0) ∗ tbPt0 c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The gate word the body loads at grid point `i` from the second table held at contents `xt1`. -/
abbrev gateWord (c : Dev nD) (xt1 : TbBuf0 (F := F) c tbM1) (i : grid0.Coords) : BitVec 32 :=
  tbM1.view.readAt (Elt F) (Rect.unit (s := S128) (k0_off1 i) S1.size (k0_off1_inb i)).toLoadRect xt1 (Shape.Idx.first (numel1_S1.symm ▸ Nat.one_pos))

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof data
    whose array is `V`'s and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result's window is written back at every point, whatever the tables hold: its index map is the grid coordinate. -/
theorem flush0_2 (a : (pcfg0 (F := F)).Adm) : ∀ t : Fin (cfg0 a).N, ((cfg0 a).win 2).flush t = true :=
  (by decide +kernel : ∀ t : Fin grid0.N, Pipeline.Window.flushOf grid0 true cc0_transform_2 t = true)

/-- Each window's current staging memref at point `t`, as the pipeline passes it to the body, and its wholeness. -/
abbrev ms0_0 (hO : Ok m) (t : Fin (cfgM m hO).N) : Memref sig .tc .vmem S1x270x3000 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x270x270 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x270x3000 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point `t`, on what the pipeline calls it with. -/
abbrev bodyAt0 (a : (pcfg0 (F := F)).Adm) (t : Fin (cfg0 a).N) : Prog (TpuEff nD τ sig (Elt F) Λ₀ .tc) PUnit :=
  cc0__moe_kernel (grid0.coords t) (Memref.whole main_v7) (Memref.isWhole_whole _) (Memref.whole main_v8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- The offsets `![0, 0, 0]` of the body's whole-block loads and stores are zero on every axis. -/
theorem hz3 : (![0, 0, 0] : Fin 3 → Nat) = fun _ => 0 := by
  funext a; match a with | ⟨0, _⟩ => rfl | ⟨1, _⟩ => rfl | ⟨2, _⟩ => rfl

end Cert.KernelIdeal.Hand

end
-- ==== Proof.KI.Run.lean ====
/-
  The kernel body, run once for each of its two cases, on any staging memrefs.

  The body loads the gate word of its grid point from the second table. If the word is zero it stores the zero block
  into the result's buffer and skips the second branch; otherwise it skips the first branch, loads the sample block and
  the weight block, and stores their product. Either way the inputs' buffers and the tables are handed back as found.
-/
import proofs.«426693_j83056077570346_2_alg».proof.Proof.KI.Setup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The gate word is zero: the result's buffer ends at the zero block. -/
theorem run_zero (c : Dev nD) (i : grid0.Coords) (arg3 : Memref sig .tc .vmem S1x270x3000 .f32) (harg3 : arg3.IsWhole)
    (arg4 : Memref sig .tc .vmem S1x270x270 .bf16) (harg4 : arg4.IsWhole) (arg5 : Memref sig .tc .vmem S1x270x3000 .f32) (harg5 : arg5.IsWhole)
    (x0 : Vec F S1x270x3000 .f32) (x1 : Vec F S1x270x270 .bf16) (xt0 : TbBuf0 (F := F) c tbM0) (xt1 : TbBuf0 (F := F) c tbM1)
    (hc1 : k0_cond1 (gateWord c xt1 i) = 1#1) (hc2 : ¬ k0_cond2 (gateWord c xt1 i) = 1#1)
    (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0 xt0 ∗ tbPt0 c tbM1 xt1
        ∗ (iprop(owns (c : Thread nD τ) arg3 fullShare x0 ∗ owns (c : Thread nD τ) arg4 fullShare x1
            ∗ owns (c : Thread nD τ) arg5 fullShare (k0_pay1 (F := F)) ∗ tbPt0 c tbM0 xt0 ∗ tbPt0 c tbM1 xt1) -∗ K ⟨⟩))
      ⊢ wp frame (wpE (defs₀ (F := F)) Variants.none c none) E (cc0__moe_kernel i tbM0 htbM0 tbM1 htbM1 arg3 harg3 arg4 harg4 arg5 harg5) K := by
  simp only [cc0__moe_kernel_eq_skeleton]; unfold cc0__moe_kernel_skel
  unfold owns
  iintro ⟨⟨%f0, %hf0, H0⟩, ⟨%f1, %hf1, H1⟩, ⟨%d2, %f2, -, H2⟩, HT0, HT1, Hk⟩
  obtain rfl := harg3.eq_unread hf0
  obtain rfl := harg4.eq_unread hf1
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_singleton_self _, View.mem_set_unit_zero hz3 inb_S1x270x3000_S1x270x3000_0_0_0 y⟩), View.canon_unit_zero hz3]
  isplitl [HT0]; · iexact HT0
  iexact HT1

set_option maxHeartbeats 1000000 in
/-- The gate word is not zero: the result's buffer ends at the product of the weight block with the sample block. -/
theorem run_mm (c : Dev nD) (i : grid0.Coords) (arg3 : Memref sig .tc .vmem S1x270x3000 .f32) (harg3 : arg3.IsWhole)
    (arg4 : Memref sig .tc .vmem S1x270x270 .bf16) (harg4 : arg4.IsWhole) (arg5 : Memref sig .tc .vmem S1x270x3000 .f32) (harg5 : arg5.IsWhole)
    (x0 : Vec F S1x270x3000 .f32) (x1 : Vec F S1x270x270 .bf16) (xt0 : TbBuf0 (F := F) c tbM0) (xt1 : TbBuf0 (F := F) c tbM1)
    (hc1 : ¬ k0_cond1 (gateWord c xt1 i) = 1#1) (hc2 : k0_cond2 (gateWord c xt1 i) = 1#1)
    (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0 xt0 ∗ tbPt0 c tbM1 xt1
        ∗ (iprop(owns (c : Thread nD τ) arg3 fullShare x0 ∗ owns (c : Thread nD τ) arg4 fullShare x1
            ∗ owns (c : Thread nD τ) arg5 fullShare (k0_pay2 x0 x1) ∗ tbPt0 c tbM0 xt0 ∗ tbPt0 c tbM1 xt1) -∗ K ⟨⟩))
      ⊢ wp frame (wpE (defs₀ (F := F)) Variants.none c none) E (cc0__moe_kernel i tbM0 htbM0 tbM1 htbM1 arg3 harg3 arg4 harg4 arg5 harg5) K := by
  simp only [cc0__moe_kernel_eq_skeleton]; unfold cc0__moe_kernel_skel
  unfold owns
  iintro ⟨⟨%f0, %hf0, H0⟩, ⟨%f1, %hf1, H1⟩, ⟨%d2, %f2, -, H2⟩, HT0, HT1, Hk⟩
  obtain rfl := harg3.eq_unread hf0
  obtain rfl := harg4.eq_unread hf1
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_singleton_self _, View.mem_set_unit_zero hz3 inb_S1x270x3000_S1x270x3000_0_0_0 y⟩), View.canon_unit_zero hz3]
    simp only [View.readAt_eq_ld, harg3.read_unread, harg4.read_unread, View.ld_unit_zero (S := S1x270x3000) hz3, View.ld_unit_zero (S := S1x270x270) hz3]
  isplitl [HT0]; · iexact HT0
  iexact HT1

end Cert.KernelIdeal.Hand

end
-- ==== Proof.KI.Tables.lean ====
/-
  The two tables and the bank copy the host operations compute, word by word, and the pipeline's side condition of them.

  For a subject word `v` (read signed): `ssafe v = 0` if `v ≥ 101` else `v`; the gate is `1` if `ssafe v ≥ 1` else `0`;
  the row index is `ssafe v - 1` if `ssafe v ≥ 1` else `0`. So the gate is `1` exactly for `1 ≤ v ≤ 100`, and the row
  index is then `v - 1`, below 100; otherwise both are `0`. Whatever the subject words are, the row index stays inside
  the bank, which is the pipeline's side condition. The body's two conditions test the gate word against zero: exactly
  one of them holds at every word.
-/
import proofs.«426693_j83056077570346_2_alg».proof.Proof.KI.Setup
import Idealize.ShloMosaic.Lib.ValueIdx
import Idealize.ShloMosaic.Lib.StableHlo.Run
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-! ## Words -/

/-- The subject word with every value of 101 or more sent to the identity slot 0. -/
def ssafeW (v : BitVec 32) : BitVec 32 := Scalar.select (IntOp.cmpi .sge v 101#32) 0#32 v
/-- The gate word: 1 when the safe word is at least 1. -/
def gateW (v : BitVec 32) : BitVec 32 := BitVec.zeroExtend 32 (IntOp.cmpi .sge (ssafeW v) 1#32)
/-- The row-index word. -/
def idxW (v : BitVec 32) : BitVec 32 := Scalar.select (IntOp.cmpi .sge (ssafeW v) 1#32) (IntOp.subi (ssafeW v) 1#32) 0#32

/-- The bit of a signed "at least": 1 exactly when the second word, read signed, is at most the first. -/
private theorem sge_bit (x y : BitVec 32) : IntOp.cmpi .sge x y = if y.toInt ≤ x.toInt then 1#1 else 0#1 := by
  show BitVec.ofBool (y.sle x) = _
  rw [BitVec.sle_eq_decide]
  by_cases h : y.toInt ≤ x.toInt
  · rw [if_pos h, decide_eq_true h]; rfl
  · rw [if_neg h, decide_eq_false h]; rfl

/-- A select on the bit of a decidable condition is the "if" on the condition. -/
private theorem select_bit {α : Type} (p : Prop) [Decidable p] (a b : α) :
    Scalar.select (if p then 1#1 else 0#1) a b = if p then a else b := by
  by_cases h : p
  · rw [if_pos h, if_pos h]; exact select_one a b
  · rw [if_neg h, if_neg h]; exact select_zero a b

private theorem toInt_101 : (101#32 : BitVec 32).toInt = 101 := by decide
private theorem toInt_1 : (1#32 : BitVec 32).toInt = 1 := by decide

/-- The safe word is 0 from 101 on, and the word itself below. -/
theorem ssafeW_eq (v : BitVec 32) : ssafeW v = if 101 ≤ v.toInt then 0#32 else v := by
  unfold ssafeW
  rw [sge_bit, select_bit, toInt_101]
theorem ssafeW_of_ge {v : BitVec 32} (h : 101 ≤ v.toInt) : ssafeW v = 0#32 := by rw [ssafeW_eq, if_pos h]
theorem ssafeW_of_lt {v : BitVec 32} (h : ¬ 101 ≤ v.toInt) : ssafeW v = v := by rw [ssafeW_eq, if_neg h]

/-- The safe word is at least 1 exactly when the word lies in 1 … 100. -/
theorem sge1_bit (v : BitVec 32) :
    IntOp.cmpi .sge (ssafeW v) 1#32 = if 1 ≤ v.toInt ∧ v.toInt ≤ 100 then 1#1 else 0#1 := by
  rw [sge_bit, toInt_1]
  by_cases h : 101 ≤ v.toInt
  · have c : ¬ (1 ≤ v.toInt ∧ v.toInt ≤ 100) := by omega
    have z : ¬ (1 : Int) ≤ (0#32 : BitVec 32).toInt := by rw [BitVec.toInt_zero]; omega
    rw [ssafeW_of_ge h, if_neg z, if_neg c]
  · rw [ssafeW_of_lt h]
    by_cases h' : 1 ≤ v.toInt
    · have c : 1 ≤ v.toInt ∧ v.toInt ≤ 100 := ⟨h', by omega⟩
      rw [if_pos h', if_pos c]
    · have c : ¬ (1 ≤ v.toInt ∧ v.toInt ≤ 100) := fun c => h' c.1
      rw [if_neg h', if_neg c]

theorem gateW_eq (v : BitVec 32) : gateW v = if 1 ≤ v.toInt ∧ v.toInt ≤ 100 then 1#32 else 0#32 := by
  unfold gateW
  rw [sge1_bit]
  by_cases c : 1 ≤ v.toInt ∧ v.toInt ≤ 100
  · rw [if_pos c, if_pos c]; decide
  · rw [if_neg c, if_neg c]; decide

/-- The row-index word is the word less one inside 1 … 100, and 0 outside. -/
theorem idxW_eq (v : BitVec 32) : idxW v = if 1 ≤ v.toInt ∧ v.toInt ≤ 100 then v - 1#32 else 0#32 := by
  unfold idxW
  rw [sge1_bit, select_bit]
  by_cases c : 1 ≤ v.toInt ∧ v.toInt ≤ 100
  · have h : ¬ 101 ≤ v.toInt := by omega
    rw [if_pos c, if_pos c, ssafeW_of_lt h]; rfl
  · rw [if_neg c, if_neg c]

/-- A word that is non-negative read signed reads the same unsigned. -/
private theorem toNat_of_nonneg (v : BitVec 32) (h : 0 ≤ v.toInt) : (v.toNat : Int) = v.toInt := by
  have h1 := BitVec.toInt_eq_toNat_cond v
  have h2 : v.toNat < 2 ^ 32 := v.isLt
  split at h1
  · omega
  · omega

theorem idxW_toNat (v : BitVec 32) : (idxW v).toNat = if 1 ≤ v.toInt ∧ v.toInt ≤ 100 then (v.toInt - 1).toNat else 0 := by
  rw [idxW_eq]
  by_cases c : 1 ≤ v.toInt ∧ v.toInt ≤ 100
  · rw [if_pos c, if_pos c, BitVec.toNat_sub]
    have hn := toNat_of_nonneg v (by omega)
    have h2 : v.toNat < 2 ^ 32 := v.isLt
    have e1 : (1#32 : BitVec 32).toNat = 1 := rfl
    rw [e1]
    omega
  · rw [if_neg c, if_neg c]; rfl
theorem idxW_lt (v : BitVec 32) : (idxW v).toNat < 100 := by
  rw [idxW_toNat]
  by_cases c : 1 ≤ v.toInt ∧ v.toInt ≤ 100
  · rw [if_pos c]; omega
  · rw [if_neg c]; omega

/-- The body's first condition holds exactly at a zero gate word; -/
theorem cond1_iff (w : BitVec 32) : k0_cond1 w = 1#1 ↔ w = 0#32 := by
  show BitVec.ofBool ((BitVec.ofBool (w == 0#32)).setWidth 32 != 0#32) = 1#1 ↔ _
  by_cases h : w = 0#32
  · subst h; decide
  · have hb : (w == 0#32) = false := beq_eq_false_iff_ne.mpr h
    rw [hb]
    exact ⟨fun h' => absurd h' (by decide), fun h' => absurd h' h⟩
/-- its second exactly at a nonzero one. -/
theorem cond2_iff (w : BitVec 32) : k0_cond2 w = 1#1 ↔ w ≠ 0#32 := by
  show BitVec.ofBool ((BitVec.ofBool (w != 0#32)).setWidth 32 != 0#32) = 1#1 ↔ _
  by_cases h : w = 0#32
  · subst h; decide
  · have hb : (w != 0#32) = true := bne_iff_ne.mpr h
    rw [hb]
    exact ⟨fun _ => h, fun _ => by decide⟩

/-! ## The tables and the bank copy as the region finds them -/

/-- The subject words on core `c`. -/
abbrev subjOf (c : Dev nD) : IVec S128 32 := m ((c : Thread nD τ).loc main_arg1)

/-- The first table, whole: the row-index word of every subject word. -/
theorem V_rowTable (c : Dev nD) : (V m c main_v7 : IVec S128 32) = fun i => idxW (subjOf m c i) := by
  dsimp only [V]
  simp only [hostOps0, hostOps0_1, hostOps0_2, hostOps0_3, hostOps0_4, List.flatten_cons, List.flatten_nil, List.append_nil, List.cons_append,
    List.nil_append]
  after_results
  try simp only [StableHlo.TRef.ofBuf, StableHlo.TRef.toBuf, cast_eq]
  rfl
/-- The second table, whole: the gate word of every subject word. -/
theorem V_gateTable (c : Dev nD) : (V m c main_v8 : IVec S128 32) = fun i => gateW (subjOf m c i) := by
  dsimp only [V]
  simp only [hostOps0, hostOps0_1, hostOps0_2, hostOps0_3, hostOps0_4, List.flatten_cons, List.flatten_nil, List.append_nil, List.cons_append,
    List.nil_append]
  after_results
  try simp only [StableHlo.TRef.ofBuf, StableHlo.TRef.toBuf, cast_eq]
  rfl

theorem tbl0_word (b : Fin 128) : (tbl m 0 : IVec S128 32) (ix1 b) = idxW (subjOf m 0 (ix1 b)) :=
  congrFun (V_rowTable m 0) (ix1 b)
theorem tbl1_word (b : Fin 128) : (tbl m 1 : IVec S128 32) (ix1 b) = gateW (subjOf m 0 (ix1 b)) :=
  congrFun (V_gateTable m 0) (ix1 b)

/-- The one word of a 128-word table under a one-word rectangle at offset `b`: the index `b`. -/
private theorem unit_idx (off : Fin 1 → Nat) (b : Fin 128) (hoff : off 0 = b.val) (inb : ∀ a, off a + S1.size a ≤ S128.size a)
    (x : (Rect.unit (s := S128) off S1.size inb).toLoadRect.shape.Idx) :
    (Rect.unit (s := S128) off S1.size inb).toLoadRect.idx x = ix1 b := by
  funext a
  match a with
  | ⟨0, h⟩ =>
    apply Fin.ext
    have hx : (x ⟨0, h⟩).val < 1 := (x ⟨0, h⟩).isLt
    show off 0 + 1 * (x ⟨0, h⟩).val = b.val
    omega

/-- The offset the body and window 1's index map load their table word at is the grid coordinate. -/
private theorem off1_zero (i : grid0.Coords) : k0_off1 i 0 = (i 0).val := congrFun (k0_off1_eq i) 0

/-- The gate word the body loads at a grid point is the second table's word there. -/
theorem gateWord_eq (xt1 : TbBuf0 (F := F) (0 : Dev nD) tbM1) (i : grid0.Coords) :
    gateWord (0 : Dev nD) xt1 i = (xt1 : IVec S128 32) (ix1 (i 0)) := by
  have e := unit_idx (k0_off1 i) (i 0) (off1_zero i) (k0_off1_inb i) (Shape.Idx.first (numel1_S1.symm ▸ Nat.one_pos))
  show (xt1 : IVec S128 32) ((Rect.unit (s := S128) (k0_off1 i) S1.size (k0_off1_inb i)).toLoadRect.idx
    (Shape.Idx.first (numel1_S1.symm ▸ Nat.one_pos))) = _
  rw [e]

/-- Window 1's block index at a grid point: the first table's word there, and zeros. -/
theorem rowIdx_eq (pf : pre0.Contents (Elt F)) (i : grid0.Coords) :
    cc0_transform_1 (F := F) k0_off1_inb numel1_S1 pf i = ![((pf 0 : IVec S128 32) (ix1 (i 0))).toNat, 0, 0] := by
  have e := unit_idx (k0_off1 i) (i 0) (off1_zero i) (k0_off1_inb i) (Shape.Idx.first (numel1_S1.symm ▸ Nat.one_pos))
  show (![((pf 0 : IVec S128 32) ((Rect.unit (s := S128) (k0_off1 i) S1.size (k0_off1_inb i)).toLoadRect.idx
    (Shape.Idx.first (numel1_S1.symm ▸ Nat.one_pos)))).toNat, 0, 0] : Fin 3 → Nat) = _
  rw [e]

/-- The side condition holds of any tables whose first names a bank row at every word: the block then lies inside the
    bank, and it takes every row of its one slab, so its words are whole at any packing. -/
theorem ok_of_lt (pf : pre0.Contents (Elt F)) (h : ∀ b : Fin 128, ((pf 0 : IVec S128 32) (ix1 b)).toNat < 100) : ok0 pf := by
  unfold ok0
  intro i
  have hlt := h (i 0)
  rw [rowIdx_eq pf i]
  generalize ((pf 0 : IVec S128 32) (ix1 (i 0))).toNat = k at hlt ⊢
  have hin : ∀ a, ((![k, 0, 0] : Fin 3 → Nat) a + 1) * S1x270x270.size a ≤ S100x270x270.size a := by
    intro a
    match a with
    | ⟨0, _⟩ => show (k + 1) * 1 ≤ 100; omega
    | ⟨1, _⟩ => show (0 + 1) * 270 ≤ 270; omega
    | ⟨2, _⟩ => show (0 + 1) * 270 ≤ 270; omega
  refine ⟨hin, Or.inr ?_⟩
  unfold Rect.WholeWords
  exact Or.inr ⟨by decide, rfl, rfl, rfl⟩

/-- The pipeline's side condition holds whatever the launch memory is. -/
theorem ok_all : Ok m :=
  ok_of_lt (tbl m) fun b => by rw [tbl0_word m b]; exact idxW_lt _

/-- The bank copy the region finds is the bank, its float format narrowed. -/
theorem V_bank (c : Dev nD) : (V m c main_v9 : FVec F S100x270x270 .bf16) = truncf .bf16 (m ((c : Thread nD τ).loc main_arg2) : FVec F S100x270x270 .f32) bitsLt_bf16_f32 := by
  dsimp only [V]
  simp only [hostOps0, hostOps0_1, hostOps0_2, hostOps0_3, hostOps0_4, List.flatten_cons, List.flatten_nil, List.append_nil, List.cons_append,
    List.nil_append]
  after_results

end Cert.KernelIdeal.Hand

end
-- ==== Proof.KI.Frame.lean ====
/-
  The kernel region's proof data and the run of @main.

  After the body at point `t` the two input windows' buffers still hold their blocks, and the result's buffer holds the
  zero block when the gate word of `t` is zero and the product of the weight block with the sample block otherwise.
  Exactly one of the body's two conditions holds at every gate word, so the body always stores the result's block; the
  block is written back at every point. The launch then says: every execution of @main terminates, the result array is
  the entry contents overwritten block by block with those values, and every other buffer is as the region found it — in
  particular the three argument arrays, which no host operation writes.
-/
import proofs.«426693_j83056077570346_2_alg».proof.Proof.KI.Run
import proofs.«426693_j83056077570346_2_alg».proof.Proof.KI.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result's buffer holds after each point -/

/-- The gate word of point `t`, as the body reads it from the second table. -/
abbrev gateAt (hO : Ok m) (c : Dev nD) (t : Fin (cfgM m hO).N) : BitVec 32 := gateWord c (tbl m 1) (grid0.coords t)

/-- The zero block at a zero gate word, else the weight block times the sample block. -/
def outAt (hO : Ok m) (c : Dev nD) (t : Fin (cfgM m hO).N) : Vec F S1x270x3000 .f32 :=
  if k0_cond1 (gateAt m hO c t) = 1#1 then k0_pay1 (F := F) else k0_pay2 (iblk m hO c 0 t) (iblk m hO c 1 t)

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation -/

/-- The result's buffer at what the body left is what the obligation asks of it: the point writes the block back. -/
theorem leaves2 (hO : Ok m) (c : Dev nD) (t : Fin (cfgM m hO).N) :
    owns (c : Thread nD τ) (ms0_2 m hO t) fullShare ((dats m hO 0 c).after 2 t) ⊢ ((dats m hO 0 c).leavesExact 2 t : sProp 𝕄) := by
  unfold Dat.leavesExact
  rw [flush0_2 (adm m hO) t]
  cases (cfgM m hO).idle 2 ((cfgM m hO).grid.coords t) <;> exact .rfl

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ (dats m hO 0 c).leavesExact 2 t)

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1]
  rw [show (dats m hO 0 c).Φ t.castSucc = iprop(Pipeline.ΦA spec0 c ∗ Pipeline.ΦT pre0 (tbl m) c) from rfl, PhiT0_eq]
  by_cases hc : k0_cond1 (gateAt m hO c t) = 1#1
  · have hc2 : ¬ k0_cond2 (gateAt m hO c t) = 1#1 := fun h => (cond2_iff _).mp h ((cond1_iff _).mp hc)
    have hout : (dats m hO 0 c).after 2 t = k0_pay1 (F := F) := by rw [after0_2]; unfold outAt; rw [if_pos hc]
    iintro ⟨⟨HΦ, ⟨HT0, HT1⟩⟩, Ho, ⟨%d0, H0⟩, ⟨%d1, H1⟩, ⟨%d2, H2⟩⟩
    iapply (run_zero c (grid0.coords t) _ _ _ _ _ _ (iblk m hO c 0 t) (iblk m hO c 1 t) (tbl m 0) (tbl m 1) hc hc2 Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iapply (leaves2 m hO c t)
    rw [hout]
    iexact H2
  · have hc2 : k0_cond2 (gateAt m hO c t) = 1#1 := (cond2_iff _).mpr fun h => hc ((cond1_iff _).mpr h)
    have hout : (dats m hO 0 c).after 2 t = k0_pay2 (iblk m hO c 0 t) (iblk m hO c 1 t) := by rw [after0_2]; unfold outAt; rw [if_neg hc]
    iintro ⟨⟨HΦ, ⟨HT0, HT1⟩⟩, Ho, ⟨%d0, H0⟩, ⟨%d1, H1⟩, ⟨%d2, H2⟩⟩
    iapply (run_mm c (grid0.coords t) _ _ _ _ _ _ (iblk m hO c 0 t) (iblk m hO c 1 t) (tbl m 0) (tbl m 1) hc hc2 Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iapply (leaves2 m hO c t)
    rw [hout]
    iexact H2

theorem body_obligation (hO : Ok m) (c : Dev nD) : BodyObligation (dats (F := F) m hO 0 c) (defs₀ (F := F)) Variants.none () Set.univ := fun t => by
  rw [bigSep_W0, bigSep_W0]
  exact sound_body m hO c t

/-! ## The run -/

set_option backward.isDefEq.respectTransparency.types false in
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run with its results named: the result array at the blocks the points wrote back over its entry contents, the three
    argument arrays as launched. -/
theorem run_named (hO : Ok m) : θ_run defs (onTc (τ := τ) (main (F := F))) ⟨m, fun _ => 0, ρ⟩ (fun r => ∀ c : Dev nD,
      r.2.mem ((c.tc : Thread nD τ).loc main_v10) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 2,
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) (run_main m ρ hO)

/-- The frame: @main terminates without a fault and its argument arrays end unchanged, whatever the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ (ok_all m))

end Cert.KernelIdeal.Hand

end
-- ==== Proof.KernelPay.lean ====
/-
  The two values the kernel's body stores into its output block, read at an index of the block, over the extended reals.
-/
import proofs.«426693_j83056077570346_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelPay

open Cert.KernelIdeal Cert.KernelIdeal.Gen Idealize.ShloMosaic Idealize.ShloMosaic.ValueIdx

/-- The block stored when the gate word is zero is zero everywhere. -/
theorem pay_zero (j : Fin 270) (t : Fin 3000) : k0_pay1 (F := Ideal) (ix3 (0 : Fin 1) j t) = 0 := by
  unfold k0_pay1
  -- a leading unit axis added to a constant block: the entry is the constant, and the zero word is the real zero
  refine (shapeCast_ab_1ab_apply _ shapeCasts_S270x3000_S1x270x3000 (0 : Fin 1) j t).trans ?_
  exact Ideal.ofBits_zero_f32

/-! ## The product's operand indices

The product contracts axis 1 of the left operand with axis 0 of the right operand; the output's axis 0 is the left
operand's free axis and its axis 1 the right operand's free axis. -/

/-- Left operand, axis 0 (free): the output's row. -/
theorem lhs_mm_0 (i : S270x3000.Idx) (q : dot_S270x270_S270x3000_S270x3000_1_0_0_1_n_n.contr.Idx) :
    (dot_S270x270_S270x3000_S270x3000_1_0_0_1_n_n.lhsIdx i q 0).val = (i 0).val := by
  unfold DotDims.lhsIdx
  rw [dif_neg (show ¬(0 : Fin S270x270.rank) ∈ dot_S270x270_S270x3000_S270x3000_1_0_0_1_n_n.lhsBatch by decide), dif_pos (show (0 : Fin S270x270.rank) ∈ dot_S270x270_S270x3000_S270x3000_1_0_0_1_n_n.lhsNonContracting by decide)]
  rfl

/-- Left operand, axis 1 (contracted): the summation index. -/
theorem lhs_mm_1 (i : S270x3000.Idx) (q : dot_S270x270_S270x3000_S270x3000_1_0_0_1_n_n.contr.Idx) :
    (dot_S270x270_S270x3000_S270x3000_1_0_0_1_n_n.lhsIdx i q 1).val = (q ⟨0, by decide⟩).val :=
  dot_S270x270_S270x3000_S270x3000_1_0_0_1_n_n.lhsIdx_val_of_single rfl i q

/-- Right operand, axis 0 (contracted): the summation index. -/
theorem rhs_mm_0 (i : S270x3000.Idx) (q : dot_S270x270_S270x3000_S270x3000_1_0_0_1_n_n.contr.Idx) :
    (dot_S270x270_S270x3000_S270x3000_1_0_0_1_n_n.rhsIdx i q 0).val = (q ⟨0, by decide⟩).val :=
  dot_S270x270_S270x3000_S270x3000_1_0_0_1_n_n.rhsIdx_val_of_single rfl i q

/-- Right operand, axis 1 (free): the output's column. -/
theorem rhs_mm_1 (i : S270x3000.Idx) (q : dot_S270x270_S270x3000_S270x3000_1_0_0_1_n_n.contr.Idx) :
    (dot_S270x270_S270x3000_S270x3000_1_0_0_1_n_n.rhsIdx i q 1).val = (i 1).val := by
  unfold DotDims.rhsIdx
  rw [dif_neg (show ¬(1 : Fin S270x3000.rank) ∈ dot_S270x270_S270x3000_S270x3000_1_0_0_1_n_n.rhsBatch by decide), dif_pos (show (1 : Fin S270x3000.rank) ∈ dot_S270x270_S270x3000_S270x3000_1_0_0_1_n_n.rhsNonContracting by decide)]
  rfl

/-- A 270 by 270 matrix times a 270 by 3000 matrix accumulated into zero, read at (j, t): the sum over k of the left
operand at (j, k) times the right operand at (k, t). -/
theorem mm_apply (A : FVec Ideal S270x270 .bf16) (B : FVec Ideal S270x3000 .bf16) (j : Fin 270) (t : Fin 3000) :
    matmul (F := Ideal) dot_S270x270_S270x3000_S270x3000_1_0_0_1_n_n none A B (constant (F := Ideal) S270x3000 .f32 0x00000000#32) (ix2 j t)
      = ∑ k : Fin 270, A (ix2 j k) * B (ix2 k t) := by
  refine (Ideal.matmul_constant_zero_apply dot_S270x270_S270x3000_S270x3000_1_0_0_1_n_n none A B (ix2 j t)).trans ?_
  rw [← Equiv.sum_comp (contrEquiv1 dot_S270x270_S270x3000_S270x3000_1_0_0_1_n_n 270 rfl rfl).symm]
  refine Finset.sum_congr rfl fun k _ => ?_
  have hk := contrEquiv1_symm_val dot_S270x270_S270x3000_S270x3000_1_0_0_1_n_n 270 rfl rfl k
  have el : dot_S270x270_S270x3000_S270x3000_1_0_0_1_n_n.lhsIdx (ix2 j t) ((contrEquiv1 dot_S270x270_S270x3000_S270x3000_1_0_0_1_n_n 270 rfl rfl).symm k) = ix2 j k := funext fun a => Fin.ext (by
    match a with
    | ⟨0, _⟩ => exact lhs_mm_0 _ _
    | ⟨1, _⟩ => exact (lhs_mm_1 _ _).trans hk)
  have er : dot_S270x270_S270x3000_S270x3000_1_0_0_1_n_n.rhsIdx (ix2 j t) ((contrEquiv1 dot_S270x270_S270x3000_S270x3000_1_0_0_1_n_n 270 rfl rfl).symm k) = ix2 k t := funext fun a => Fin.ext (by
    match a with
    | ⟨0, _⟩ => exact (rhs_mm_0 _ _).trans hk
    | ⟨1, _⟩ => exact rhs_mm_1 _ _)
  rw [el, er]

/-- The block stored otherwise: entry `(j, t)` is row `j` of the weight block times column `t` of the sample block. -/
theorem pay_mm (x0 : FVec Ideal S1x270x3000 .f32) (a0 : FVec Ideal S1x270x270 .bf16) (j : Fin 270) (t : Fin 3000) :
    k0_pay2 (F := Ideal) x0 a0 (ix3 (0 : Fin 1) j t) = ∑ k : Fin 270, a0 (ix3 (0 : Fin 1) j k) * x0 (ix3 (0 : Fin 1) k t) := by
  unfold k0_pay2
  -- drop the unit axis added on the way out, then read the product at (j, t)
  refine (shapeCast_ab_1ab_apply _ shapeCasts_S270x3000_S1x270x3000 (0 : Fin 1) j t).trans ?_
  refine (mm_apply _ _ j t).trans ?_
  refine Finset.sum_congr rfl fun k _ => ?_
  -- each factor is the block's entry: the casts only drop the unit axis, and the change of float format is the identity
  have ha : shapeCast S270x270 a0 shapeCasts_S1x270x270_S270x270 (ix2 j k) = a0 (ix3 (0 : Fin 1) j k) :=
    shapeCast_1ab_ab_apply a0 shapeCasts_S1x270x270_S270x270 j k
  have hx : truncf (F := Ideal) .bf16 (shapeCast S270x3000 x0 shapeCasts_S1x270x3000_S270x3000) bitsLt_bf16_f32 (ix2 k t) = x0 (ix3 (0 : Fin 1) k t) :=
    (truncf_apply _ bitsLt_bf16_f32 (ix2 k t)).trans (shapeCast_1ab_ab_apply x0 shapeCasts_S1x270x3000_S270x3000 k t)
  exact congrArg₂ (· * ·) ha hx

end Cert.KernelPay

end
-- ==== Proof.Spec.lean ====
/-
  The function both programs compute, over the extended reals.

  Sample `b` carries a subject word `s b`. Read as a signed number `v`, it selects a weight matrix: row `v - 1` of the
  bank `A` when `1 ≤ v ≤ 100`, and the zero matrix otherwise (the identity slot `v = 0`, and every word above the bank).
  The result at `(b, j, t)` is the product of that matrix's row `j` with column `t` of sample `b`:
  `∑ k, W_b[j, k] · x[b, k, t]`. With the zero matrix every term is `0 · x = 0` on the extended reals, so the sum is `0`
  whatever `x` holds.
-/
import Idealize.ShloMosaic.PureOps.Ideal
import Idealize.ShloMosaic.Lib.ValueIdx

noncomputable section

open scoped BigOperators

namespace Cert.MoeSpec

open Idealize.ShloMosaic Idealize.ShloMosaic.ValueIdx

abbrev SX : Shape := ⟨3, ![128, 270, 3000]⟩
abbrev SS : Shape := ⟨1, ![128]⟩
abbrev SA : Shape := ⟨3, ![100, 270, 270]⟩

/-- Entry `(j, k)` of the weight matrix the subject word `v` selects: row `v - 1` of the bank for `1 ≤ v ≤ 100`
    (signed), the zero matrix otherwise. -/
def wt (A : FVec Ideal SA .f32) (v : BitVec 32) (j k : Fin 270) : EReal :=
  if h : 1 ≤ v.toInt ∧ v.toInt ≤ 100 then A (ix3 (⟨(v.toInt - 1).toNat, by omega⟩ : Fin 100) j k) else 0

/-- The result at sample `b`, output row `j`, time `t`. -/
def Gat (x : FVec Ideal SX .f32) (s : IVec SS 32) (A : FVec Ideal SA .f32) (b : Fin 128) (j : Fin 270) (t : Fin 3000) : EReal :=
  ∑ k : Fin 270, wt A (s (ix1 b)) j k * x (ix3 b k t)

/-- The result array. -/
def G (x : FVec Ideal SX .f32) (s : IVec SS 32) (A : FVec Ideal SA .f32) : FVec Ideal SX .f32 :=
  fun i => Gat x s A (i 0) (i 1) (i 2)

theorem G_ix3 (x : FVec Ideal SX .f32) (s : IVec SS 32) (A : FVec Ideal SA .f32) (b : Fin 128) (j : Fin 270) (t : Fin 3000) :
    G x s A (ix3 b j t) = Gat x s A b j t := rfl

/-- A word outside `1 … 100` selects the zero matrix. -/
theorem wt_of_not (A : FVec Ideal SA .f32) (v : BitVec 32) (h : ¬ (1 ≤ v.toInt ∧ v.toInt ≤ 100)) (j k : Fin 270) : wt A v j k = 0 := by
  unfold wt; rw [dif_neg h]

/-- A word `v` in `1 … 100` selects row `v - 1` of the bank. -/
theorem wt_of_mem (A : FVec Ideal SA .f32) (v : BitVec 32) (h : 1 ≤ v.toInt ∧ v.toInt ≤ 100) (r : Fin 100) (hr : r.val = (v.toInt - 1).toNat)
    (j k : Fin 270) : wt A v j k = A (ix3 r j k) := by
  unfold wt; rw [dif_pos h]; congr 2; exact Fin.ext hr.symm

/-- With the zero matrix selected the result is `0`: every term is `0 · x`. -/
theorem Gat_of_not (x : FVec Ideal SX .f32) (s : IVec SS 32) (A : FVec Ideal SA .f32) (b : Fin 128) (j : Fin 270) (t : Fin 3000)
    (h : ¬ (1 ≤ (s (ix1 b)).toInt ∧ (s (ix1 b)).toInt ≤ 100)) : Gat x s A b j t = 0 := by
  unfold Gat
  refine Finset.sum_eq_zero fun k _ => ?_
  rw [wt_of_not A _ h, zero_mul]

end Cert.MoeSpec

end
-- ==== Proof.KI.Value.lean ====
/-
  The result array after the run is the specification `G` of the three argument arrays, over the extended reals.

  Point `t` writes back block `t` of the result. Where the gate word of `t` is zero the subject word of sample `t` is
  outside `1 … 100`, the block is zero and so is `G` there. Otherwise the subject word `v` is in `1 … 100`, the weight
  block is row `v - 1` of the bank (its float format narrowed, which changes nothing over the extended reals), the sample
  block is sample `t`, and the stored product is `G` entry by entry. The 128 blocks tile the result array.
-/
import proofs.«426693_j83056077570346_2_alg».proof.Proof.KI.Frame
import proofs.«426693_j83056077570346_2_alg».proof.Proof.KernelPay
import proofs.«426693_j83056077570346_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.MoeSpec

variable (m : (ℓ : Loc nD τ sig) → Buf (Elt Ideal) ℓ) (ρ : Dev nD → PrngReg)

/-- The specification at the launch contents of the three argument arrays on core `c`. -/
abbrev Gm (c : Dev nD) : FVec Ideal S128x270x3000 .f32 :=
  G (m ((c : Thread nD τ).loc main_arg0)) (m ((c : Thread nD τ).loc main_arg1)) (m ((c : Thread nD τ).loc main_arg2))

/-- The grid has one axis: point `t` has coordinate `t`, and the sample window and the result window sit at block `t`. -/
theorem idx_facts : ∀ t : Fin grid0.N, ((grid0.coords t) 0).val = t.val ∧ cc0_transform_0 (grid0.coords t) = ![t.val, 0, 0]
    ∧ cc0_transform_2 (grid0.coords t) = ![t.val, 0, 0] :=
  (by decide +kernel : ∀ t : Fin grid0.N, _)

/-! ## One entry of the stored block -/

/-- The gate computed from a subject word is zero exactly when the word lies outside `1 … 100`. -/
theorem gateW_zero_iff (v : BitVec 32) : gateW v = 0#32 ↔ ¬ (1 ≤ v.toInt ∧ v.toInt ≤ 100) := by
  rw [gateW_eq]
  by_cases h : 1 ≤ v.toInt ∧ v.toInt ≤ 100
  · rw [if_pos h]; exact ⟨fun e => absurd e (by decide), fun n => absurd h n⟩
  · rw [if_neg h]; exact ⟨fun _ => h, fun _ => rfl⟩

/-- What the body stores at entry `(0, j, u)` of its block is the specification at `(b, j, u)`, once the gate word is the
    gate of sample `b`'s subject word, the sample block is sample `b`, and — when the subject word selects a bank row —
    the weight block is that row. At a zero gate the subject word selects the zero matrix: the stored zero is the empty
    product. Otherwise the stored row-times-column sum is the specification's, term by term. -/
theorem stored_entry (x : FVec Ideal SX .f32) (s : IVec SS 32) (A : FVec Ideal SA .f32)
    (x0 : FVec Ideal S1x270x3000 .f32) (a0 : FVec Ideal S1x270x270 .bf16) (w : BitVec 32)
    (b : Fin 128) (j : Fin 270) (u : Fin 3000)
    (hw : w = gateW (s (ix1 b)))
    (hx : ∀ k : Fin 270, x0 (ix3 (0 : Fin 1) k u) = x (ix3 b k u))
    (ha : 1 ≤ (s (ix1 b)).toInt ∧ (s (ix1 b)).toInt ≤ 100 → ∀ k : Fin 270, a0 (ix3 (0 : Fin 1) j k) = wt A (s (ix1 b)) j k) :
    (if k0_cond1 w = 1#1 then k0_pay1 (F := Ideal) else k0_pay2 x0 a0) (ix3 (0 : Fin 1) j u) = G x s A (ix3 b j u) := by
  rw [G_ix3]
  by_cases hc : k0_cond1 w = 1#1
  · have hv : ¬ (1 ≤ (s (ix1 b)).toInt ∧ (s (ix1 b)).toInt ≤ 100) :=
      (gateW_zero_iff _).mp (hw ▸ (cond1_iff w).mp hc)
    rw [if_pos hc, Gat_of_not x s A b j u hv]
    exact Cert.KernelPay.pay_zero j u
  · have hv : 1 ≤ (s (ix1 b)).toInt ∧ (s (ix1 b)).toInt ≤ 100 := by
      by_contra hn
      exact hc ((cond1_iff w).mpr (hw.trans ((gateW_zero_iff _).mpr hn)))
    rw [if_neg hc]
    refine (Cert.KernelPay.pay_mm x0 a0 j u).trans ?_
    unfold Gat
    refine Finset.sum_congr rfl fun k _ => ?_
    rw [ha hv k, hx k]

/-! ## Where a block's entries sit, at any admissible contents of the tables

A block's entry sits in its array, on each axis, at the block index times the block's extent plus the entry's own
coordinate. The sample and result windows sit at block `(t, 0, 0)` and the weight window at `(r, 0, 0)`, `r` the word the
first table holds at `t`; every block has extent 1 on axis 0 and the array's full extent on axes 1 and 2. -/

section AtAnyTables

variable (a : (pcfg0 (F := Ideal)).Adm)

theorem indexMap_sample (t : Fin (cfg0 a).N) : ((cfg0 a).win 0).index t = cc0_transform_0 (grid0.coords t) := rfl
theorem indexMap_weight (t : Fin (cfg0 a).N) : ((cfg0 a).win 1).index t = cc0_transform_1 k0_off1_inb numel1_S1 a.1 (grid0.coords t) := rfl
theorem indexMap_result (t : Fin (cfg0 a).N) : ((cfg0 a).win 2).index t = cc0_transform_2 (grid0.coords t) := rfl

/-- Entry `(0, k, u)` of the sample window's block at point `t` is entry `(t, k, u)` of the sample array. -/
theorem read_sample (g : FVec Ideal S128x270x3000 .f32) (t : Fin (cfg0 a).N) (b : Fin 128) (hb : b.val = t.val) (k : Fin 270) (u : Fin 3000) :
    (((cfg0 a).win 0).blk t).view.read (Elt Ideal) g (ix3 (0 : Fin 1) k u) = g (ix3 b k u) := by
  obtain ⟨-, e0, -⟩ := idx_facts t
  show g ((((cfg0 a).win 0).blk t).view.emb (ix3 (0 : Fin 1) k u)) = g (ix3 b k u)
  refine congrArg g (funext fun d => Fin.ext ?_)
  match d with
  | ⟨0, _⟩ =>
    show ((cfg0 a).win 0).index t (0 : Fin 3) * 1 + 1 * 0 = b.val
    rw [indexMap_sample, e0]; show t.val * 1 + 1 * 0 = b.val; omega
  | ⟨1, _⟩ =>
    show ((cfg0 a).win 0).index t (1 : Fin 3) * 270 + 1 * k.val = k.val
    rw [indexMap_sample, e0]; show 0 * 270 + 1 * k.val = k.val; omega
  | ⟨2, _⟩ =>
    show ((cfg0 a).win 0).index t (2 : Fin 3) * 3000 + 1 * u.val = u.val
    rw [indexMap_sample, e0]; show 0 * 3000 + 1 * u.val = u.val; omega

/-- Entry `(0, j, k)` of the weight window's block at point `t` is entry `(r, j, k)` of the bank copy, `r` the row the first
    table names at `t`. -/
theorem read_weight (pf : pre0.Contents (Elt Ideal)) (hpf : a.1 = pf) (g : FVec Ideal S100x270x270 .bf16) (t : Fin (cfg0 a).N)
    (b : Fin 128) (hb : b.val = t.val) (r : Fin 100) (hr : r.val = ((pf 0 : IVec S128 32) (ix1 b)).toNat) (j k : Fin 270) :
    (((cfg0 a).win 1).blk t).view.read (Elt Ideal) g (ix3 (0 : Fin 1) j k) = g (ix3 r j k) := by
  subst hpf
  have eb : (grid0.coords t) 0 = b := Fin.ext ((idx_facts t).1.trans hb.symm)
  have e1 := rowIdx_eq a.1 (grid0.coords t)
  rw [eb, ← hr] at e1
  show g ((((cfg0 a).win 1).blk t).view.emb (ix3 (0 : Fin 1) j k)) = g (ix3 r j k)
  refine congrArg g (funext fun d => Fin.ext ?_)
  match d with
  | ⟨0, _⟩ =>
    show ((cfg0 a).win 1).index t (0 : Fin 3) * 1 + 1 * 0 = r.val
    rw [indexMap_weight, e1]; show r.val * 1 + 1 * 0 = r.val; omega
  | ⟨1, _⟩ =>
    show ((cfg0 a).win 1).index t (1 : Fin 3) * 270 + 1 * j.val = j.val
    rw [indexMap_weight, e1]; show 0 * 270 + 1 * j.val = j.val; omega
  | ⟨2, _⟩ =>
    show ((cfg0 a).win 1).index t (2 : Fin 3) * 270 + 1 * k.val = k.val
    rw [indexMap_weight, e1]; show 0 * 270 + 1 * k.val = k.val; omega

/-- Entry `y` of the result window's block at point `t` is entry `(t, y₁, y₂)` of the result array. -/
theorem read_result (g : FVec Ideal S128x270x3000 .f32) (t : Fin (cfg0 a).N) (b : Fin 128) (hb : b.val = t.val)
    (y : S1x270x3000.Idx) (j : Fin 270) (hj : j.val = (y 1).val) (u : Fin 3000) (hu : u.val = (y 2).val) :
    (((cfg0 a).win 2).blk t).view.read (Elt Ideal) g y = g (ix3 b j u) := by
  obtain ⟨-, -, e2⟩ := idx_facts t
  show g ((((cfg0 a).win 2).blk t).view.emb y) = g (ix3 b j u)
  refine congrArg g (funext fun d => Fin.ext ?_)
  match d with
  | ⟨0, _⟩ =>
    have hy : (y 0).val < 1 := (y 0).isLt
    show ((cfg0 a).win 2).index t (0 : Fin 3) * 1 + 1 * (y 0).val = b.val
    rw [indexMap_result, e2]; show t.val * 1 + 1 * (y 0).val = b.val; omega
  | ⟨1, _⟩ =>
    show ((cfg0 a).win 2).index t (1 : Fin 3) * 270 + 1 * (y 1).val = j.val
    rw [indexMap_result, e2]; show 0 * 270 + 1 * (y 1).val = j.val; omega
  | ⟨2, _⟩ =>
    show ((cfg0 a).win 2).index t (2 : Fin 3) * 3000 + 1 * (y 2).val = u.val
    rw [indexMap_result, e2]; show 0 * 3000 + 1 * (y 2).val = u.val; omega

/-- The staging buffer's entry written back to entry `y` of the result's block: `(0, y₁, y₂)`, the block being whole. -/
theorem stage_entry (t : Fin (cfg0 a).N) (y : S1x270x3000.Idx)
    (j : Fin 270) (hj : j.val = (y 1).val) (u : Fin 3000) (hu : u.val = (y 2).val) :
    ((cfg0 a).win 2).xinj ((cfg0 a).grid.coords t) y = ix3 (0 : Fin 1) j u := by
  funext d; apply Fin.ext
  match d with
  | ⟨0, _⟩ =>
    have hy : (y 0).val < 1 := (y 0).isLt
    show (y 0).val = 0; omega
  | ⟨1, _⟩ => show (y 1).val = j.val; omega
  | ⟨2, _⟩ => show (y 2).val = u.val; omega

/-- A staging buffer whose entry `(0, j, u)` is `g (t, j, u)` for all `j`, `u` is written back as block `t` of `g`. -/
theorem cut_eq_read (t : Fin (cfg0 a).N) (X : FVec Ideal S1x270x3000 .f32) (g : FVec Ideal S128x270x3000 .f32)
    (h : ∀ b : Fin 128, b.val = t.val → ∀ (j : Fin 270) (u : Fin 3000), X (ix3 (0 : Fin 1) j u) = g (ix3 b j u)) :
    ((cfg0 a).win 2).cut ((cfg0 a).grid.coords t) X = (((cfg0 a).win 2).blk t).view.read (Elt Ideal) g := by
  have hN : t.val < 128 := lt_of_lt_of_eq t.isLt N_0
  refine funext fun (y : S1x270x3000.Idx) => ?_
  have ey := stage_entry a t y ⟨(y 1).val, (y 1).isLt⟩ rfl ⟨(y 2).val, (y 2).isLt⟩ rfl
  rw [read_result a g t ⟨t.val, hN⟩ rfl y ⟨(y 1).val, (y 1).isLt⟩ rfl ⟨(y 2).val, (y 2).isLt⟩ rfl]
  show X (((cfg0 a).win 2).xinj ((cfg0 a).grid.coords t) y) = _
  rw [ey]
  exact h ⟨t.val, hN⟩ rfl _ _

/-- The rectangle of block `t` lies inside the result array. -/
theorem result_rect_inb (t : Fin grid0.N) : ∀ d : Fin 3, cc0_transform_2 (grid0.coords t) d * S1x270x3000.size d + S1x270x3000.size d ≤ S128x270x3000.size d :=
  fun d => by have h := hinb0_2 (grid0.coords t) d; rw [Nat.add_mul, Nat.one_mul] at h; exact h

/-- An index of the result array lies in point `t`'s block iff each coordinate lies in the block's range on its axis. -/
theorem mem_result_blk (t : Fin (cfg0 a).N) (i : S128x270x3000.Idx) :
    i ∈ (((cfg0 a).win 2).blk t).view.set ↔ ∀ d : Fin 3, cc0_transform_2 (grid0.coords t) d * S1x270x3000.size d ≤ (i d).val
      ∧ (i d).val < cc0_transform_2 (grid0.coords t) d * S1x270x3000.size d + S1x270x3000.size d := by
  show i ∈ ((View.whole main_v10).slice (Rect.unit (s := main_v10.ty.shape) (fun d => cc0_transform_2 (grid0.coords t) d * S1x270x3000.size d) S1x270x3000.size (result_rect_inb t))).set ↔ _
  rw [View.set_slice_whole, Rect.mem_set_unit]
  exact Iff.rfl

/-- Row `r` of the result array is covered by point `r`'s block, and every point writes its block back. -/
theorem covered (i : S128x270x3000.Idx) :
    ∃ t : Fin (cfg0 a).N, ((cfg0 a).win 2).flush t = true ∧ i ∈ (((cfg0 a).win 2).blk t).view.set := by
  have h0 : (i 0).val < 128 := (i 0).isLt
  have h1 : (i 1).val < 270 := (i 1).isLt
  have h2 : (i 2).val < 3000 := (i 2).isLt
  refine ⟨⟨(i 0).val, by rw [show (cfg0 a).N = 128 from N_0]; exact h0⟩, flush0_2 a _, ?_⟩
  rw [mem_result_blk]
  obtain ⟨-, -, e2⟩ := idx_facts ⟨(i 0).val, by rw [N_0]; exact h0⟩
  intro d
  rw [e2]
  match d with
  | ⟨0, _⟩ => show (i 0).val * 1 ≤ (i 0).val ∧ (i 0).val < (i 0).val * 1 + 1; omega
  | ⟨1, _⟩ => show 0 * 270 ≤ (i 1).val ∧ (i 1).val < 0 * 270 + 270; omega
  | ⟨2, _⟩ => show 0 * 3000 ≤ (i 2).val ∧ (i 2).val < 0 * 3000 + 3000; omega

end AtAnyTables

/-! ## Point `t`, at the tables the region finds -/

/-- The gate word of point `t` is the gate of sample `t`'s subject word. -/
theorem gateAt_eq (hO : Ok m) (t : Fin (cfgM m hO).N) (b : Fin 128) (hb : b.val = t.val) :
    gateAt m hO 0 t = gateW (subjOf m 0 (ix1 b)) := by
  have eb : (grid0.coords t) 0 = b := Fin.ext ((idx_facts t).1.trans hb.symm)
  refine (gateWord_eq (tbl m 1) (grid0.coords t)).trans ?_
  rw [eb]
  exact tbl1_word m b

/-- The sample block at point `t` is sample `t` as launched: no host operation writes the samples. -/
theorem iblk_sample (hO : Ok m) (t : Fin (cfgM m hO).N) (b : Fin 128) (hb : b.val = t.val) (k : Fin 270) (u : Fin 3000) :
    iblk m hO 0 0 t (ix3 (0 : Fin 1) k u) = m (((0 : Dev nD) : Thread nD τ).loc main_arg0) (ix3 b k u) := by
  unfold iblk
  exact (read_sample (adm m hO) (V m 0 main_arg0) t b hb k u).trans (congrFun (V_main_arg0 m 0) (ix3 b k u))

/-- The weight block at point `t`, when sample `t`'s subject word `v` lies in `1 … 100`, is the weight matrix `v` selects: the
    first table's word at `t` is `v - 1`, the bank copy is the bank with its float format narrowed, and the narrowing is the
    identity over the extended reals. -/
theorem iblk_weight (hO : Ok m) (t : Fin (cfgM m hO).N) (b : Fin 128) (hb : b.val = t.val)
    (hv : 1 ≤ (subjOf m 0 (ix1 b)).toInt ∧ (subjOf m 0 (ix1 b)).toInt ≤ 100) (j k : Fin 270) :
    iblk m hO 0 1 t (ix3 (0 : Fin 1) j k) = wt (m (((0 : Dev nD) : Thread nD τ).loc main_arg2)) (subjOf m 0 (ix1 b)) j k := by
  obtain ⟨r, hr⟩ : ∃ r : Fin 100, r.val = (idxW (subjOf m 0 (ix1 b))).toNat := ⟨⟨_, idxW_lt _⟩, rfl⟩
  have hr' : r.val = ((subjOf m 0 (ix1 b)).toInt - 1).toNat := by rw [hr, idxW_toNat, if_pos hv]
  unfold iblk
  refine (read_weight (adm m hO) (tbl m) rfl (V m 0 main_v9) t b hb r (hr.trans (congrArg BitVec.toNat (tbl0_word m b)).symm) j k).trans ?_
  refine (congrFun (V_bank m 0) (ix3 r j k)).trans ?_
  refine (truncf_apply _ bitsLt_bf16_f32 (ix3 r j k)).trans ?_
  exact (wt_of_mem _ _ hv r hr' j k).symm

/-- What point `t` writes back is block `t` of the specification. -/
theorem flushed_eq (hO : Ok m) (c : Dev nD) (t : Fin (cfgM m hO).N) :
    (dats m hO 0 c).flushed 2 t = (((cfgM m hO).win 2).blk t).view.read (Elt Ideal) (Gm m c) := by
  obtain rfl : c = 0 := Subsingleton.elim _ _
  show ((cfgM m hO).win 2).cut ((cfgM m hO).grid.coords t) ((dats m hO 0 0).after 2 t) = _
  rw [after0_2]
  refine cut_eq_read (adm m hO) t (outAt m hO 0 t) (Gm m 0) fun b hb j u => ?_
  unfold outAt
  exact stored_entry _ _ _ (iblk m hO 0 0 t) (iblk m hO 0 1 t) (gateAt m hO 0 t) b j u (gateAt_eq m hO t b hb)
    (fun k => iblk_sample m hO t b hb k u) (fun hv k => iblk_weight m hO t b hb hv j k)

/-- The result array after the run is the specification: every point writes back its block of it, and the blocks cover the array. -/
theorem final (hO : Ok m) (c : Dev nD) : (dats m hO 0 c).arrAt 2 (cfgM m hO).N = Gm m c :=
  (dats m hO 0 c).arrAt_eq_of_cover 2 (Gm m c) (fun t _ => flushed_eq m hO c t) (covered (adm m hO))

end Cert.KernelIdeal.Hand

end
-- ==== Proof.RefValue.lean ====
/-
  The reference's result, read index by index, is the specification `Cert.MoeSpec.G`.

  The subject word of a sample is first guarded (a word at or above 101 becomes 0), then wrapped as a negative index
  would be (which does nothing to a word that is not negative); the result is the start index of a gather from the
  stack "zero matrix on top of the bank", read signed and clamped into 0 … 100. Under the hypothesis that every
  subject word is non-negative, the gathered matrix is the one the specification's `wt` names, and the batched
  product over it is `Gat`.
-/
import proofs.«426693_j83056077570346_2_alg».proof.Proof.Gen.ReferenceIdeal.Read
import proofs.«426693_j83056077570346_2_alg».proof.Proof.Spec

noncomputable section

open scoped BigOperators

namespace Cert.RefSide

open Cert.ReferenceIdeal Cert.ReferenceIdeal.Gen Cert.ReferenceIdeal.Read Idealize.ShloMosaic Idealize.ShloMosaic.ValueIdx

/-! ## The index word -/

/-- A signed "at least" compare is the decision of the order on the signed readings. -/
theorem cmpi_sge_eq (v c : BitVec 32) : IntOp.cmpi .sge v c = BitVec.ofBool (decide (c.toInt ≤ v.toInt)) := rfl
/-- A signed "less than" compare is the decision of the strict order on the signed readings. -/
theorem cmpi_slt_eq (v c : BitVec 32) : IntOp.cmpi .slt v c = BitVec.ofBool (decide (v.toInt < c.toInt)) := rfl

/-- The guarded word: a word at or above 101 becomes 0, any other is kept. -/
theorem safe_eq (v : BitVec 32) :
    Scalar.select (IntOp.cmpi .sge v 101#32) 0#32 v = if 101 ≤ v.toInt then 0#32 else v := by
  rw [cmpi_sge_eq, show (101#32 : BitVec 32).toInt = 101 by decide]
  unfold Scalar.select
  by_cases h : 101 ≤ v.toInt
  · rw [decide_eq_true h, if_pos h, if_pos (by decide)]
  · rw [decide_eq_false h, if_neg h, if_neg (by decide)]

/-- The wrap of a negative index does nothing to a word that is not negative. -/
theorem wrap_eq (w : BitVec 32) (hw : 0 ≤ w.toInt) :
    Scalar.select (IntOp.cmpi .slt w 0#32) (IntOp.addi w 101#32) w = w := by
  rw [cmpi_slt_eq, show (0#32 : BitVec 32).toInt = 0 by decide, decide_eq_false (by omega)]
  unfold Scalar.select
  rw [if_neg (by decide)]

/-- The guarded word is not negative when the word is not, and is at most 100. -/
theorem safe_toInt (v : BitVec 32) (hv : 0 ≤ v.toInt) :
    (if 101 ≤ v.toInt then 0#32 else v).toInt = if 101 ≤ v.toInt then 0 else v.toInt := by
  by_cases h : 101 ≤ v.toInt
  · rw [if_pos h, if_pos h]; decide
  · rw [if_neg h, if_neg h]

/-- The composed index word: guarded, then wrapped. -/
theorem word_eq (v : BitVec 32) (hv : 0 ≤ v.toInt) :
    Scalar.select (IntOp.cmpi .slt (Scalar.select (IntOp.cmpi .sge v 101#32) 0#32 v) 0#32)
        (IntOp.addi (Scalar.select (IntOp.cmpi .sge v 101#32) 0#32 v) 101#32)
        (Scalar.select (IntOp.cmpi .sge v 101#32) 0#32 v)
      = if 101 ≤ v.toInt then 0#32 else v := by
  rw [safe_eq v]
  refine wrap_eq _ ?_
  rw [safe_toInt v hv]
  split <;> omega

/-! ## The gather at an index

The gather's operand is the stack of 101 matrices, its start indices a column of 128 words; axis 0 of the operand
is collapsed and start-indexed, axes 1 and 2 are the offset axes. Result element `(b, j, k)` reads the operand at
`(m, j, k)`, `m` the start word of row `b` read signed and clamped into `0 … 100`. -/

/-- The gather's dimension numbers, under a short name. -/
abbrev gd : GatherDims S101x270x270 S128x1 S128x270x270 := gather_S101x270x270_S128x1_S128x270x270_12_0_n_n_0_1_1270270

/-- On the collapsed axis the operand coordinate is the clamped start word. -/
theorem gd_op0 (y : S128x270x270.Idx) (idx : IVec S128x1 32) :
    (gd.operandIdx y idx 0).val = min (idx (ix2 (⟨(y 0).val, (y 0).isLt⟩ : Fin 128) (0 : Fin 1))).toInt.toNat 100 := by
  show gd.start y idx 0 + gd.batchCoord y 0 + gd.offCoord y 0 = _
  rw [GatherDims.batchCoord_eq_zero gd y 0 (by decide), GatherDims.offCoord_eq_zero gd y 0 (by decide)]
  simp only [Nat.add_zero]
  unfold GatherDims.start
  rw [dif_pos (show (0 : Fin S101x270x270.rank) ∈ gd.startIndexMap by decide)]
  have hsi : gd.siIdx y ⟨List.idxOf (0 : Fin S101x270x270.rank) gd.startIndexMap,
      List.idxOf_lt_length_iff.2 (show (0 : Fin S101x270x270.rank) ∈ gd.startIndexMap by decide)⟩
      = ix2 (⟨(y 0).val, (y 0).isLt⟩ : Fin 128) (0 : Fin 1) := by
    funext c; refine Fin.ext ?_
    match c with
    | ⟨0, _⟩ => rfl
    | ⟨1, _⟩ => rfl
  rw [hsi]
  rfl

/-- On the first offset axis the operand coordinate is the result's. -/
theorem gd_op1 (y : S128x270x270.Idx) (idx : IVec S128x1 32) : (gd.operandIdx y idx 1).val = (y 1).val := by
  show gd.start y idx 1 + gd.batchCoord y 1 + gd.offCoord y 1 = _
  have hs : gd.start y idx 1 = 0 := by
    unfold GatherDims.start
    rw [dif_neg (show ¬ (1 : Fin S101x270x270.rank) ∈ gd.startIndexMap by decide)]
  have ho : gd.offCoord y 1 = (y 1).val := by
    unfold GatherDims.offCoord
    rw [dif_pos (show (1 : Fin S101x270x270.rank) ∈ gd.sKept by decide)]
    rfl
  rw [hs, GatherDims.batchCoord_eq_zero gd y 1 (by decide), ho]
  omega

/-- On the second offset axis the operand coordinate is the result's. -/
theorem gd_op2 (y : S128x270x270.Idx) (idx : IVec S128x1 32) : (gd.operandIdx y idx 2).val = (y 2).val := by
  show gd.start y idx 2 + gd.batchCoord y 2 + gd.offCoord y 2 = _
  have hs : gd.start y idx 2 = 0 := by
    unfold GatherDims.start
    rw [dif_neg (show ¬ (2 : Fin S101x270x270.rank) ∈ gd.startIndexMap by decide)]
  have ho : gd.offCoord y 2 = (y 2).val := by
    unfold GatherDims.offCoord
    rw [dif_pos (show (2 : Fin S101x270x270.rank) ∈ gd.sKept by decide)]
    rfl
  rw [hs, GatherDims.batchCoord_eq_zero gd y 2 (by decide), ho]
  omega

/-- The gather read at `(b, j, k)`: the operand at `(m, j, k)`, for `m` the clamped start word of row `b`. -/
theorem gather_apply {α : Type} (x : S101x270x270.Idx → α) (idx : IVec S128x1 32) (b : Fin 128) (j k : Fin 270)
    (m : Fin 101) (hm : m.val = min (idx (ix2 b (0 : Fin 1))).toInt.toNat 100) :
    Host.gather gd x idx (ix3 b j k) = x (ix3 m j k) := by
  unfold Host.gather
  congr 1
  funext a
  refine Fin.ext ?_
  match a with
  | ⟨0, _⟩ => exact (gd_op0 (ix3 b j k) idx).trans hm.symm
  | ⟨1, _⟩ => exact gd_op1 (ix3 b j k) idx
  | ⟨2, _⟩ => exact gd_op2 (ix3 b j k) idx

/-! ## The stack of matrices at an index: the zero matrix on top of the bank -/

/-- Matrix 0 of the stack is the zero matrix. -/
theorem cat_zero (x2 : (⟨S100x270x270, .f32⟩ : BufTy).Contents (Elt Ideal)) (m : Fin 101) (hm : m.val = 0) (j k : Fin 270) :
    val_main_v1 (F := Ideal) x2 (ix3 m j k) = 0 := by
  unfold val_main_v1
  refine (concatenate_pair_apply_left (0 : Fin S101x270x270.rank) (val_main_v0 (F := Ideal)) x2
    concatenates_S1x270x270_S100x270x270_S101x270x270_d0 (ix3 m j k) rfl (ix3 (0 : Fin 1) j k) ?_).trans ?_
  · intro a
    match a with
    | ⟨0, _⟩ => exact hm.symm
    | ⟨1, _⟩ => rfl
    | ⟨2, _⟩ => rfl
  · rw [val_main_v0_apply, val_main_cst_apply]
    exact Ideal.ofBits_zero_f32

/-- Matrix `r + 1` of the stack is matrix `r` of the bank. -/
theorem cat_succ (x2 : (⟨S100x270x270, .f32⟩ : BufTy).Contents (Elt Ideal)) (m : Fin 101) (r : Fin 100) (hmr : m.val = r.val + 1)
    (j k : Fin 270) : val_main_v1 (F := Ideal) x2 (ix3 m j k) = x2 (ix3 r j k) := by
  unfold val_main_v1
  refine concatenate_pair_apply_right (0 : Fin S101x270x270.rank) (val_main_v0 (F := Ideal)) x2
    concatenates_S1x270x270_S100x270x270_S101x270x270_d0 (ix3 m j k) rfl rfl (ix3 r j k) ?_ ?_
  · intro a ha
    match a, ha with
    | ⟨0, _⟩, ha => exact (ha (Fin.ext rfl)).elim
    | ⟨1, _⟩, _ => rfl
    | ⟨2, _⟩, _ => rfl
  · show r.val + 1 = m.val
    exact hmr.symm

/-! ## The start word of a row, and the gathered matrix -/

/-- Row `b` of the start indices is the guarded subject word of sample `b`. -/
theorem idx_word (x1 : (⟨S128, .i32⟩ : BufTy).Contents (Elt Ideal)) (hs : ∀ b : Fin 128, 0 ≤ (x1 (ix1 b)).toInt) (b : Fin 128) :
    val_main_v10 (F := Ideal) x1 (ix2 b (0 : Fin 1)) = if 101 ≤ (x1 (ix1 b)).toInt then 0#32 else x1 (ix1 b) := by
  have e : idx_main_v10 (ix2 b (0 : Fin 1)) = ix1 b := by
    funext a; match a with | ⟨0, _⟩ => rfl
  rw [val_main_v10_apply, e]
  exact word_eq (x1 (ix1 b)) (hs b)

/-- The gathered matrix of sample `b` is the weight matrix its subject word selects. -/
theorem row_eq (x1 : (⟨S128, .i32⟩ : BufTy).Contents (Elt Ideal)) (x2 : (⟨S100x270x270, .f32⟩ : BufTy).Contents (Elt Ideal))
    (hs : ∀ b : Fin 128, 0 ≤ (x1 (ix1 b)).toInt) (b : Fin 128) (j k : Fin 270) :
    val_main_v11 (F := Ideal) x1 x2 (ix3 b j k) = Cert.MoeSpec.wt x2 (x1 (ix1 b)) j k := by
  have hv := hs b
  have hw := idx_word x1 hs b
  unfold val_main_v11
  by_cases h : 1 ≤ (x1 (ix1 b)).toInt ∧ (x1 (ix1 b)).toInt ≤ 100
  · -- a word in 1 … 100: the start is the word itself, matrix `v` of the stack, matrix `v - 1` of the bank
    have hw' : val_main_v10 (F := Ideal) x1 (ix2 b (0 : Fin 1)) = x1 (ix1 b) := by
      rw [hw, if_neg (by omega)]
    rw [Cert.MoeSpec.wt_of_mem x2 _ h (⟨((x1 (ix1 b)).toInt - 1).toNat, by omega⟩ : Fin 100) rfl j k]
    refine (gather_apply (val_main_v1 (F := Ideal) x2) (val_main_v10 (F := Ideal) x1) b j k
      (⟨(x1 (ix1 b)).toInt.toNat, by omega⟩ : Fin 101) ?_).trans ?_
    · rw [hw']
      show (x1 (ix1 b)).toInt.toNat = min (x1 (ix1 b)).toInt.toNat 100
      omega
    · refine cat_succ x2 _ _ ?_ j k
      show (x1 (ix1 b)).toInt.toNat = ((x1 (ix1 b)).toInt - 1).toNat + 1
      omega
  · -- the word 0, or a word above the bank: the start is 0, the zero matrix
    rw [Cert.MoeSpec.wt_of_not x2 _ h j k]
    refine (gather_apply (val_main_v1 (F := Ideal) x2) (val_main_v10 (F := Ideal) x1) b j k (⟨0, by omega⟩ : Fin 101) ?_).trans ?_
    · rw [hw]
      show 0 = min _ 100
      by_cases h101 : 101 ≤ (x1 (ix1 b)).toInt
      · rw [if_pos h101, show (0#32 : BitVec 32).toInt = 0 by decide]; rfl
      · rw [if_neg h101]; omega
    · exact cat_zero x2 _ rfl j k

/-- When every subject word is non-negative as a signed number, the reference's result is `G`. -/
theorem ref_eq (x0 : (⟨S128x270x3000, .f32⟩ : BufTy).Contents (Elt Ideal)) (x1 : (⟨S128, .i32⟩ : BufTy).Contents (Elt Ideal))
    (x2 : (⟨S100x270x270, .f32⟩ : BufTy).Contents (Elt Ideal)) (hs : ∀ b : Fin 128, 0 ≤ (x1 (ix1 b)).toInt) :
    val_main_v12 (F := Ideal) x0 x1 x2 = Cert.MoeSpec.G x0 x1 x2 := by
  funext i
  obtain ⟨b, j, t, rfl⟩ : ∃ (b : Fin 128) (j : Fin 270) (t : Fin 3000), i = ix3 b j t := ⟨i 0, i 1, i 2, eq_ix3 i⟩
  refine (val_main_v12_apply x0 x1 x2 (ix3 b j t)).trans ?_
  rw [Cert.MoeSpec.G_ix3]
  unfold Cert.MoeSpec.Gat
  refine Finset.sum_congr rfl fun k _ => ?_
  have el : lidx_main_v12 (ix3 b j t) k = ix3 b j k := by
    funext a; match a with | ⟨0, _⟩ => rfl | ⟨1, _⟩ => rfl | ⟨2, _⟩ => rfl
  have er : ridx_main_v12 (ix3 b j t) k = ix3 b k t := by
    funext a; match a with | ⟨0, _⟩ => rfl | ⟨1, _⟩ => rfl | ⟨2, _⟩ => rfl
  rw [el, er, row_eq x1 x2 hs b j k]

end Cert.RefSide

end
-- ==== Proof.PreDecode.lean ====
/-
  What the precondition says of the subject words: each is non-negative as a signed number.

  The printed predicate is a conjunction of three `all`-reductions; the third reduces `s ≥ 0` (signed) over the 128
  subject words. The predicate being true, every conjunct is, and an `and`-reduction that is true is true at every index.
-/
import proofs.«426693_j83056077570346_2_alg».proof.Pre_finite_inputs
import proofs.«426693_j83056077570346_2_alg».proof.Proof.Gen.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- Under the precondition every subject word is non-negative as a signed number. -/
theorem subj_nonneg (x0 : FVec Ideal S128x270x3000 .f32) (x1 : IVec S128 32) (x2 : FVec Ideal S100x270x270 .f32)
    (h : Cert.Pre_finite_inputs.fn (F := Ideal) x0 x1 x2 = (fun _ => 1#1)) : ∀ b : Fin 128, 0 ≤ (x1 (ix1 b)).toInt := by
  intro b
  -- the predicate at its one index
  have h0 := congrFun h ix0
  dsimp only [fn] at h0
  -- a conjunction of words that is true has both conjuncts true: keep the last, the reduction over the subject words
  have h1 := (IntOp.andi_eq_one.1 h0).2
  -- a reduction by conjunction that is true is true at every index
  have h2 := Host.reduce_andi_all _ _ _ _ _ h1 (ix1 b)
  -- at an index the comparison against the broadcast zero word is the signed comparison of words
  have h3 : (0#32 : BitVec 32).toInt ≤ (x1 (ix1 b)).toInt := IntOp.cmpi_sge.1 h2
  have hz : (0#32 : BitVec 32).toInt = 0 := by decide
  rw [hz] at h3
  exact h3

end Cert.PreDecode

end
-- ==== Proof.lean ====
/-
  The certificate: the three programs' frames, the (empty) list of idealization rewrites, and the equality of the two
  idealized programs' results over the extended reals.

  Both programs compute, per sample `b`, the product of a weight matrix chosen by the subject word `s b` with the
  sample: row `s b - 1` of the bank for `1 ≤ s b ≤ 100`, the zero matrix for `s b = 0` and for `s b ≥ 101`. They differ
  only at negative subject words, where the reference's indexing wraps around into the bank while the kernel takes the
  zero matrix; the precondition excludes those (every subject word is non-negative), and under it both results are the
  one function `Cert.MoeSpec.G` of the argument arrays. The kernel's side needs no hypothesis at all: its result is
  `G` at every memory, and its frames hold at every memory, because the row index its host code computes always lies
  inside the bank.
-/
import proofs.«426693_j83056077570346_2_alg».proof.Defs
import proofs.«426693_j83056077570346_2_alg».proof.Proof.Gen.Kernel
import proofs.«426693_j83056077570346_2_alg».proof.Proof.Gen.KernelIdeal
import proofs.«426693_j83056077570346_2_alg».proof.Proof.Gen.ReferenceIdeal
import proofs.«426693_j83056077570346_2_alg».proof.Proof.Gen.Pre_finite_inputs
import proofs.«426693_j83056077570346_2_alg».proof.Proof.Gen.ReferenceIdeal.Run
import proofs.«426693_j83056077570346_2_alg».proof.Proof.K.Frame
import proofs.«426693_j83056077570346_2_alg».proof.Proof.KI.Value
import proofs.«426693_j83056077570346_2_alg».proof.Proof.RefValue
import proofs.«426693_j83056077570346_2_alg».proof.Proof.PreDecode
import Idealize.ShloMosaic.Adequacy
import Idealize.ShloMosaic.Init

noncomputable section

namespace Cert.Proof

open Idealize.ShloMosaic Idealize.SL.Sem

theorem frame_k : Cert.frame_Kernel := fun m g _ => Cert.Kernel.Hand.frame m g

theorem frame_ki : Cert.frame_KernelIdeal := fun m g _ => Cert.KernelIdeal.Hand.frame m g

theorem frame_ri : Cert.frame_ReferenceIdeal := fun m g _ =>
  (θ_run Cert.ReferenceIdeal.defs _ _).mono (fun _ h c => (h c).2) (Cert.ReferenceIdeal.Value.run (F := Ideal) m g)

theorem algebraic : Cert.algebraic_KernelIdeal_ReferenceIdeal := by
  intro m g m' g' hpre hagree
  refine ⟨fun c => Cert.KernelIdeal.Hand.Gm m c, ?_, ?_⟩
  · exact (θ_run Cert.KernelIdeal.defs _ _).mono
      (fun _ h c => ⟨(h c).1.trans (Cert.KernelIdeal.Hand.final m (Cert.KernelIdeal.Hand.ok_all m) c), (h c).2⟩)
      (Cert.KernelIdeal.Hand.run_named m g (Cert.KernelIdeal.Hand.ok_all m))
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v12_eq, (hagree c).1, (hagree c).2.1, (hagree c).2.2]
    exact Cert.RefSide.ref_eq _ _ _ (Cert.PreDecode.subj_nonneg _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
